-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x2 : Shape := ⟨2, ![131072, 2]⟩
abbrev S256x2048 : Shape := ⟨2, ![256, 2048]⟩
abbrev S2048 : Shape := ⟨1, ![2048]⟩
abbrev S2048x1024 : Shape := ⟨2, ![2048, 1024]⟩
abbrev S1024 : Shape := ⟨1, ![1024]⟩
abbrev S_ : Shape := ⟨0, ![]⟩

class Facts : Prop where
  bcast_S_S131072x2 : S_.BroadcastsInDim S131072x2 (![] : Fin 0 → Fin S131072x2.rank)
  reducesTo_S131072x2_S_d0_1 : S131072x2.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_arg6 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S131072x2 .f32) (main_arg1 : FVec F S256x2048 .f32) (main_arg2 : FVec F S2048 .f32) (main_arg3 : FVec F S2048x1024 .f32) (main_arg4 : FVec F S1024 .f32) (main_arg5 : FVec F S1024 .f32) (main_arg6 : FVec F S1024 .f32) : IVec S_ 1 :=
  let main_v0 : FVec F S131072x2 .f32 := Host.absf main_arg0
  let main_cst : FVec F S_ .f32 := constant S_ .f32 0x7F800000#32
  let main_v1 : FVec F S131072x2 .f32 := broadcastInDim S131072x2 ![] bcast_S_S131072x2 main_cst
  let main_v2 : IVec S131072x2 1 := cmpf .olt main_v0 main_v1
  let main_c : IVec S_ 1 := constantI S_ 1 1#1
  let main_v3 : IVec S_ 1 := (fun x v => Host.reduce IntOp.andi x v reducesTo_S131072x2_S_d0_1 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_v13 main_v16
-- ==== Kernel.lean ====
abbrev S131072x2 : Shape := ⟨2, ![131072, 2]⟩
abbrev S256x2048 : Shape := ⟨2, ![256, 2048]⟩
abbrev S2048 : Shape := ⟨1, ![2048]⟩
abbrev S2048x1024 : Shape := ⟨2, ![2048, 1024]⟩
abbrev S1024 : Shape := ⟨1, ![1024]⟩
abbrev S64 : Shape := ⟨1, ![64]⟩
abbrev S131072x2x1 : Shape := ⟨3, ![131072, 2, 1]⟩
abbrev S1x1x64 : Shape := ⟨3, ![1, 1, 64]⟩
abbrev S131072x2x64 : Shape := ⟨3, ![131072, 2, 64]⟩
abbrev S131072x2x64x1 : Shape := ⟨4, ![131072, 2, 64, 1]⟩
abbrev S131072x2x64x2 : Shape := ⟨4, ![131072, 2, 64, 2]⟩
abbrev S131072x256 : Shape := ⟨2, ![131072, 256]⟩
abbrev S1x2048 : Shape := ⟨2, ![1, 2048]⟩
abbrev S1x1024 : Shape := ⟨2, ![1, 1024]⟩
abbrev S131072x1024 : Shape := ⟨2, ![131072, 1024]⟩
abbrev S1024x256 : Shape := ⟨2, ![1024, 256]⟩
abbrev S1024x1024 : Shape := ⟨2, ![1024, 1024]⟩
abbrev S1024x2048 : Shape := ⟨2, ![1024, 2048]⟩
abbrev S1024x1 : Shape := ⟨2, ![1024, 1]⟩

abbrev nBuf : Space → Nat
  | .hbm => 26
  | .vmem => 10
  | .smem => 0
  | _ => 0

abbrev bufTy : (tb : Table) → Fin (tcTables nBuf tb) → BufTy
  | .hbm, ⟨0, _⟩ => ⟨S131072x2, .f32⟩
  | .hbm, ⟨1, _⟩ => ⟨S256x2048, .f32⟩
  | .hbm, ⟨2, _⟩ => ⟨S2048, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S64, .f32⟩
  | .hbm, ⟨8, _⟩ => ⟨S131072x2x1, .f32⟩
  | .hbm, ⟨9, _⟩ => ⟨S1x1x64, .f32⟩
  | .hbm, ⟨10, _⟩ => ⟨S131072x2x64, .f32⟩
  | .hbm, ⟨11, _⟩ => ⟨S131072x2x64, .f32⟩
  | .hbm, ⟨12, _⟩ => ⟨S131072x2x64, .f32⟩
  | .hbm, ⟨13, _⟩ => ⟨S131072x2x64, .f32⟩
  | .hbm, ⟨14, _⟩ => ⟨S131072x2x64, .f32⟩
  | .hbm, ⟨15, _⟩ => ⟨S131072x2x64x1, .f32⟩
  | .hbm, ⟨16, _⟩ => ⟨S131072x2x64x1, .f32⟩
  | .hbm, ⟨17, _⟩ => ⟨S131072x2x64x2, .f32⟩
  | .hbm, ⟨18, _⟩ => ⟨S131072x256, .f32⟩
  | .hbm, ⟨19, _⟩ => ⟨S256x2048, .bf16⟩
  | .hbm, ⟨20, _⟩ => ⟨S2048x1024, .bf16⟩
  | .hbm, ⟨21, _⟩ => ⟨S1x2048, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S131072x1024, .f32⟩
  | .local _ .vmem, ⟨0, _⟩ => ⟨S1024x256, .f32⟩
  | .local _ .vmem, ⟨1, _⟩ => ⟨S1024x256, .f32⟩
  | .local _ .vmem, ⟨2, _⟩ => ⟨S256x2048, .bf16⟩
  | .local _ .vmem, ⟨3, _⟩ => ⟨S1x2048, .f32⟩
  | .local _ .vmem, ⟨4, _⟩ => ⟨S2048x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S131072x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S131072x2_S131072x2x1_0_1 : S131072x2.BroadcastsInDim S131072x2x1 (![0, 1] : Fin 2 → Fin S131072x2x1.rank)
  bcast_S64_S1x1x64_2 : S64.BroadcastsInDim S1x1x64 (![2] : Fin 1 → Fin S1x1x64.rank)
  bcast_S131072x2x1_S131072x2x64_0_1_2 : S131072x2x1.BroadcastsInDim S131072x2x64 (![0, 1, 2] : Fin 3 → Fin S131072x2x64.rank)
  bcast_S1x1x64_S131072x2x64_0_1_2 : S1x1x64.BroadcastsInDim S131072x2x64 (![0, 1, 2] : Fin 3 → Fin S131072x2x64.rank)
  bcast_S131072x2x64_S131072x2x64x1_0_1_2 : S131072x2x64.BroadcastsInDim S131072x2x64x1 (![0, 1, 2] : Fin 3 → Fin S131072x2x64x1.rank)
  concatenates_S131072x2x64x1_S131072x2x64x1_S131072x2x64x2_d3 : Shape.Concatenates [S131072x2x64x1, S131072x2x64x1] S131072x2x64x2 3
  shapeCasts_S131072x2x64x2_S131072x256 : S131072x2x64x2.ShapeCasts S131072x256
  bitsLt_bf16_f32 : FTy.bits .bf16 < FTy.bits .f32
  shapeCasts_S2048_S1x2048 : S2048.ShapeCasts S1x2048
  shapeCasts_S1024_S1x1024 : S1024.ShapeCasts S1x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  inb_S1024x1024_S1024x1024_0_0 : ∀ a, (![0, 0] : Fin 2 → Nat) a + S1024x1024.size a ≤ S1024x1024.size a
  h_S1024x1024 : 0 < S1024x1024.numel
  dot_S1024x256_S256x2048_S1024x2048_1_0_0_1_n_n_wf : DotDims.WF S1024x256 S256x2048 S1024x2048 [1] [0] [0] [1] [] []
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S131072x256.size a
  hwx0_0 : ∀ i : grid0.Coords, EltTy.bits .f32 = 32 ∨ (Rect.block (s := S131072x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S256x2048.size a
  hwx0_1 : ∀ i : grid0.Coords, EltTy.bits .bf16 = 32 ∨ (Rect.block (s := S256x2048) S256x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .bf16 = 32 ∨ (Rect.block (s := S2048x1024) S2048x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S131072x1024.size a
  hwx0_7 : ∀ i : grid0.Coords, EltTy.bits .f32 = 32 ∨ (Rect.block (s := S131072x1024) S1024x1024.size (cc0_transform_7 i) (hinb0_7 i)).WholeWords (EltTy.packing .f32)

variable [Facts₀]

def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_v10) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S256x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S131072x2 : Shape := ⟨2, ![131072, 2]⟩
abbrev S256x2048 : Shape := ⟨2, ![256, 2048]⟩
abbrev S2048 : Shape := ⟨1, ![2048]⟩
abbrev S2048x1024 : Shape := ⟨2, ![2048, 1024]⟩
abbrev S1024 : Shape := ⟨1, ![1024]⟩
abbrev S64 : Shape := ⟨1, ![64]⟩
abbrev S131072x2x1 : Shape := ⟨3, ![131072, 2, 1]⟩
abbrev S1x1x64 : Shape := ⟨3, ![1, 1, 64]⟩
abbrev S131072x2x64 : Shape := ⟨3, ![131072, 2, 64]⟩
abbrev S131072x2x64x1 : Shape := ⟨4, ![131072, 2, 64, 1]⟩
abbrev S131072x2x64x2 : Shape := ⟨4, ![131072, 2, 64, 2]⟩
abbrev S131072x256 : Shape := ⟨2, ![131072, 256]⟩
abbrev S131072x2048 : Shape := ⟨2, ![131072, 2048]⟩
abbrev S1x2048 : Shape := ⟨2, ![1, 2048]⟩
abbrev S_ : Shape := ⟨0, ![]⟩
abbrev S131072x1024 : Shape := ⟨2, ![131072, 1024]⟩
abbrev S1x1024 : Shape := ⟨2, ![1, 1024]⟩
abbrev S131072 : Shape := ⟨1, ![131072]⟩
abbrev S131072x1 : Shape := ⟨2, ![131072, 1]⟩

abbrev nBuf : Space → Nat
  | .hbm => 59
  | .vmem => 0
  | .smem => 0
  | _ => 0

abbrev bufTy : (tb : Table) → Fin (tcTables nBuf tb) → BufTy
  | .hbm, ⟨0, _⟩ => ⟨S131072x2, .f32⟩
  | .hbm, ⟨1, _⟩ => ⟨S256x2048, .f32⟩
  | .hbm, ⟨2, _⟩ => ⟨S2048, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S64, .f32⟩
  | .hbm, ⟨8, _⟩ => ⟨S131072x2x1, .f32⟩
  | .hbm, ⟨9, _⟩ => ⟨S1x1x64, .f32⟩
  | .hbm, ⟨10, _⟩ => ⟨S131072x2x64, .f32⟩
  | .hbm, ⟨11, _⟩ => ⟨S131072x2x64, .f32⟩
  | .hbm, ⟨12, _⟩ => ⟨S131072x2x64, .f32⟩
  | .hbm, ⟨13, _⟩ => ⟨S131072x2x64, .f32⟩
  | .hbm, ⟨14, _⟩ => ⟨S131072x2x64, .f32⟩
  | .hbm, ⟨15, _⟩ => ⟨S131072x2x64x1, .f32⟩
  | .hbm, ⟨16, _⟩ => ⟨S131072x2x64x1, .f32⟩
  | .hbm, ⟨17, _⟩ => ⟨S131072x2x64x2, .f32⟩
  | .hbm, ⟨18, _⟩ => ⟨S131072x256, .f32⟩
  | .hbm, ⟨19, _⟩ => ⟨S131072x2048, .f32⟩
  | .hbm, ⟨20, _⟩ => ⟨S1x2048, .f32⟩
  | .hbm, ⟨21, _⟩ => ⟨S131072x2048, .f32⟩
  | .hbm, ⟨22, _⟩ => ⟨S131072x2048, .f32⟩
  | .hbm, ⟨23, _⟩ => ⟨S_, .f32⟩
  | .hbm, ⟨24, _⟩ => ⟨S131072x2048, .f32⟩
  | .hbm, ⟨25, _⟩ => ⟨S131072x2048, .f32⟩
  | .hbm, ⟨26, _⟩ => ⟨S131072x1024, .f32⟩
  | .hbm, ⟨27, _⟩ => ⟨S1x1024, .f32⟩
  | .hbm, ⟨28, _⟩ => ⟨S131072x1024, .f32⟩
  | .hbm, ⟨29, _⟩ => ⟨S131072x1024, .f32⟩
  | .hbm, ⟨30, _⟩ => ⟨S_, .f32⟩
  | .hbm, ⟨31, _⟩ => ⟨S131072, .f32⟩
  | .hbm, ⟨32, _⟩ => ⟨S131072x1, .f32⟩
  | .hbm, ⟨33, _⟩ => ⟨S_, .f32⟩
  | .hbm, ⟨34, _⟩ => ⟨S131072x1, .f32⟩
  | .hbm, ⟨35, _⟩ => ⟨S131072x1, .f32⟩
  | .hbm, ⟨36, _⟩ => ⟨S131072x1024, .f32⟩
  | .hbm, ⟨37, _⟩ => ⟨S131072x1024, .f32⟩
  | .hbm, ⟨38, _⟩ => ⟨S131072x1024, .f32⟩
  | .hbm, ⟨39, _⟩ => ⟨S_, .f32⟩
  | .hbm, ⟨40, _⟩ => ⟨S131072, .f32⟩
  | .hbm, ⟨41, _⟩ => ⟨S131072x1, .f32⟩
  | .hbm, ⟨42, _⟩ => ⟨S_, .f32⟩
  | .hbm, ⟨43, _⟩ => ⟨S131072x1, .f32⟩
  | .hbm, ⟨44, _⟩ => ⟨S131072x1, .f32⟩
  | .hbm, ⟨45, _⟩ => ⟨S131072x1024, .f32⟩
  | .hbm, ⟨46, _⟩ => ⟨S131072x1024, .f32⟩
  | .hbm, ⟨47, _⟩ => ⟨S_, .f32⟩
  | .hbm, ⟨48, _⟩ => ⟨S131072x1, .f32⟩
  | .hbm, ⟨49, _⟩ => ⟨S131072x1, .f32⟩
  | .hbm, ⟨50, _⟩ => ⟨S131072x1, .f32⟩
  | .hbm, ⟨51, _⟩ => ⟨S131072x1024, .f32⟩
  | .hbm, ⟨52, _⟩ => ⟨S131072x1024, .f32⟩
  | .hbm, ⟨53, _⟩ => ⟨S1x1024, .f32⟩
  | .hbm, ⟨54, _⟩ => ⟨S131072x1024, .f32⟩
  | .hbm, ⟨55, _⟩ => ⟨S131072x1024, .f32⟩
  | .hbm, ⟨56, _⟩ => ⟨S1x1024, .f32⟩
  | .hbm, ⟨57, _⟩ => ⟨S131072x1024, .f32⟩
  | .hbm, ⟨58, _⟩ => ⟨S131072x1024, .f32⟩
  | _, _ => ⟨S131072x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]

class Facts₀ : Prop where
  bcast_S131072x2_S131072x2x1_0_1 : S131072x2.BroadcastsInDim S131072x2x1 (![0, 1] : Fin 2 → Fin S131072x2x1.rank)
  bcast_S64_S1x1x64_2 : S64.BroadcastsInDim S1x1x64 (![2] : Fin 1 → Fin S1x1x64.rank)
  bcast_S131072x2x1_S131072x2x64_0_1_2 : S131072x2x1.BroadcastsInDim S131072x2x64 (![0, 1, 2] : Fin 3 → Fin S131072x2x64.rank)
  bcast_S1x1x64_S131072x2x64_0_1_2 : S1x1x64.BroadcastsInDim S131072x2x64 (![0, 1, 2] : Fin 3 → Fin S131072x2x64.rank)
  bcast_S131072x2x64_S131072x2x64x1_0_1_2 : S131072x2x64.BroadcastsInDim S131072x2x64x1 (![0, 1, 2] : Fin 3 → Fin S131072x2x64x1.rank)
  concatenates_S131072x2x64x1_S131072x2x64x1_S131072x2x64x2_d3 : Shape.Concatenates [S131072x2x64x1, S131072x2x64x1] S131072x2x64x2 3
  shapeCasts_S131072x2x64x2_S131072x256 : S131072x2x64x2.ShapeCasts S131072x256
  bcast_S2048_S1x2048_1 : S2048.BroadcastsInDim S1x2048 (![1] : Fin 1 → Fin S1x2048.rank)
  bcast_S1x2048_S131072x2048_0_1 : S1x2048.BroadcastsInDim S131072x2048 (![0, 1] : Fin 2 → Fin S131072x2048.rank)
  bcast_S_S131072x2048 : S_.BroadcastsInDim S131072x2048 (![] : Fin 0 → Fin S131072x2048.rank)
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)
  reducesTo_S131072x1024_S131072_d1 : S131072x1024.ReducesTo [1] S131072
  h_S_ : 0 < S_.numel
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x1024_0_1 : S131072x1.BroadcastsInDim S131072x1024 (![0, 1] : Fin 2 → Fin S131072x1024.rank)
  dot_S131072x256_S256x2048_S131072x2048_1_0_0_1_n_n_wf : DotDims.WF S131072x256 S256x2048 S131072x2048 [1] [0] [0] [1] [] []
  dot_S131072x2048_S2048x1024_S131072x1024_1_0_0_1_n_n_wf : DotDims.WF S131072x2048 S2048x1024 S131072x1024 [1] [0] [0] [1] [] []

variable [Facts₀]

def dot_S131072x256_S256x2048_S131072x2048_1_0_0_1_n_n : DotDims S131072x256 S256x2048 S131072x2048 where
  lhsContracting := [1]
  rhsContracting := [0]
  lhsNonContracting := [0]
  rhsNonContracting := [1]
  lhsBatch := []
  rhsBatch := []
  wf := dot_S131072x256_S256x2048_S131072x2048_1_0_0_1_n_n_wf
def dot_S131072x2048_S2048x1024_S131072x1024_1_0_0_1_n_n : DotDims S131072x2048 S2048x1024 S131072x1024 where
  lhsContracting := [1]
  rhsContracting := [0]
  lhsNonContracting := [0]
  rhsNonContracting := [1]
  lhsBatch := []
  rhsBatch := []
  wf := dot_S131072x2048_S2048x1024_S131072x1024_1_0_0_1_n_n_wf

class Facts : Prop extends Facts₀ where

variable [Facts]
-- ==== Proof.Spec.lean ====
/-
  The layer the two programs compute, written for ONE row of the encoded input.

  A row `x` of 256 encoded features goes through a hidden layer of 2048 units with a ramp activation,
  `hidden n = max (∑ k, x k · W1 k n + b1 n) 0`, then a linear layer to 1024 outputs,
  `lin j = ∑ n, hidden n · W2 n j + b2 j`, and is then normalised over its 1024 outputs: with
  `mean = (∑ j, lin j) / 1024`, `dev j = lin j - mean` and `var = (∑ j, dev j · dev j) / 1024`,
  `out j = dev j · rsqrt (var + ε) · γ j + β j`.

  Everything is on the extended reals with the exact operations, and the three float literals (zero, 1024 and ε)
  are kept as the words the programs print: the same word stands on both sides and is never evaluated. Both
  programs' results, read at an index `(r, j)`, are `out` of row `r` of the encoded input at `j`: the kernel block
  by block of 1024 rows, the reference over all 131072 rows at once.
-/
import Idealize.ShloMosaic.PureOps.Ideal
import Idealize.ShloMosaic.Lib.ValueIdx

noncomputable section

namespace Cert.Spec

open Idealize.ShloMosaic

/-- The word of `0.0`. -/
abbrev zeroW : EReal := Ideal.ofBits .f32 0x00000000#32
/-- The word of `1024.0`, the row length the two means divide by. -/
abbrev countW : EReal := Ideal.ofBits .f32 0x44800000#32
/-- The word of the normalisation's ε (the float nearest `1e-5`). -/
abbrev epsW : EReal := Ideal.ofBits .f32 0x3727C5AC#32

variable (x : Fin 256 → EReal) (W1 : Fin 256 → Fin 2048 → EReal) (b1 : Fin 2048 → EReal)
  (W2 : Fin 2048 → Fin 1024 → EReal) (b2 g be : Fin 1024 → EReal)

/-- Hidden unit `n` of the row: the ramp of its affine form. -/
def hidden (n : Fin 2048) : EReal := max ((∑ k : Fin 256, x k * W1 k n) + b1 n) zeroW

/-- Output `j` of the second linear layer. -/
def lin (j : Fin 1024) : EReal := (∑ n : Fin 2048, hidden x W1 b1 n * W2 n j) + b2 j

/-- The row's mean over its 1024 outputs. -/
def mean : EReal := Ideal.div (∑ j : Fin 1024, lin x W1 b1 W2 b2 j) countW

/-- Output `j`'s deviation from the row's mean. -/
def dev (j : Fin 1024) : EReal := lin x W1 b1 W2 b2 j - mean x W1 b1 W2 b2

/-- The row's variance: the mean of the squared deviations. -/
def var : EReal := Ideal.div (∑ j : Fin 1024, dev x W1 b1 W2 b2 j * dev x W1 b1 W2 b2 j) countW

/-- The normalised, scaled and shifted output `j` of the row. -/
def out (j : Fin 1024) : EReal :=
  dev x W1 b1 W2 b2 j * Ideal.rsqrt (var x W1 b1 W2 b2 + epsW) * g j + be j

end Cert.Spec

end
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.LibColumn.lean ====
/-
  Rank-2 arrays whose last axis is reduced with `keepdims`: the least and the greatest entry of each row, kept as a
  one-wide column and spread back over the row.
  * a `multi_reduction <minimumf>` over one axis, at the ideal values, as the fold of `min` over that axis's
    coordinates (the library has the `<maximumf>` form);
  * the index a reduction over the LAST axis of an [a, b] array inserts: `(r, k)` over `r`;
  * the keepdims column forms read at an index: [a] → [a, 1] by a shape cast, [a, 1] → [a, b] by a broadcast.
-/
import Idealize.ShloMosaic.Lib.Pipeline.Value
import Idealize.ShloMosaic.Lib.ValueIdx
import Idealize.ShloMosaic.PureOps.Ideal.Laws

noncomputable section

namespace Cert.LibColumn

open Idealize.ShloMosaic Idealize.ShloMosaic.ValueIdx

variable {α : Type}

/-- A float `vector.multi_reduction <minimumf>` over one axis, read at the ideal values: the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Reducing the last axis of an [a, b] array: over row `r`, coordinate `k` is inserted as `(r, k)`. -/
theorem lift_last_ix2 {a b : ℕ} (h : (⟨2, ![a, b]⟩ : Shape).Reduces [(1 : Fin 2)] ⟨1, ![a]⟩) (r : Fin a) (k : Fin b) :
    h.lift (ix1 r) k = ix2 r k := by
  funext c
  apply Fin.ext
  refine (h.lift_val (ix1 r) k c).trans ?_
  match c with
  | ⟨0, _⟩ => rfl
  | ⟨1, _⟩ => rfl

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.KernelPayload.lean ====
/-
  The kernel's body on one block of 1024 rows, read at an entry.

  The body takes a block `P0` of 1024 encoded rows and the whole weights and biases (`P1`, `P2` for the hidden layer,
  `P3`, `P4` for the second linear layer; a bias is a one-row array). Its arithmetic is restated as block stages —
  the hidden block, the linear block, a block's row means as a column, the deviations, the normalised block — and
  each stage is read at an entry `(p, q)`: a matrix product into the zero splat is the sum over the contracted
  coordinate, a row sum from zero the plain sum over the row, a bias its entry at the column, a column spread over
  the row its entry at the row. A change of float format is the identity on the extended reals. So entry `(p, q)` of
  the normalised block is the layer's deviation at `q` on row `p` of the block times the reciprocal root of that
  row's variance plus ε.
-/
import proofs.«148274_j41790031790624_1_alg».proof.Proof.Gen.KernelIdeal.Skeleton
import proofs.«148274_j41790031790624_1_alg».proof.Proof.Spec
import proofs.«148274_j41790031790624_1_alg».proof.Proof.LibPlainMatmul
import proofs.«148274_j41790031790624_1_alg».proof.Proof.LibColumn
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Payload

open Cert.KernelIdeal Cert.KernelIdeal.Gen Idealize.ShloMosaic Idealize.ShloMosaic.ValueIdx

variable (P0 : FVec Ideal S1024x256 .f32) (P1 : FVec Ideal S256x2048 .bf16) (P2 : FVec Ideal S1x2048 .f32)
  (P3 : FVec Ideal S2048x1024 .bf16) (P4 : FVec Ideal S1x1024 .f32)

/-! ## The block stages -/

/-- The hidden block: the block times the first weights, the bias along the rows, the ramp against zero. -/
def hidB : FVec Ideal S1024x2048 .f32 :=
  maximumf
    (addf
      (matmul dot_S1024x256_S256x2048_S1024x2048_1_0_0_1_n_n none
        (truncf .bf16 (shapeCast S1024x256 P0 shapeCasts_S1024x256_S1024x256 : FVec Ideal S1024x256 .f32) bitsLt_bf16_f32)
        (shapeCast S256x2048 P1 shapeCasts_S256x2048_S256x2048 : FVec Ideal S256x2048 .bf16) (constant S1024x2048 .f32 0x00000000#32))
      (broadcastTo S1024x2048 (shapeCast S1x2048 P2 shapeCasts_S1x2048_S1x2048 : FVec Ideal S1x2048 .f32) broadcasts_S1x2048_S1024x2048))
    (broadcast S1024x2048 (Scalar.ofBits (F := Ideal) .f32 0x00000000#32))

/-- The linear block: the hidden block times the second weights and the bias along the rows. -/
def linB : FVec Ideal S1024x1024 .f32 :=
  addf
    (matmul dot_S1024x2048_S2048x1024_S1024x1024_1_0_0_1_n_n none
      (truncf .bf16 (hidB P0 P1 P2) bitsLt_bf16_f32)
      (shapeCast S2048x1024 P3 shapeCasts_S2048x1024_S2048x1024 : FVec Ideal S2048x1024 .bf16) (constant S1024x1024 .f32 0x00000000#32))
    (broadcastTo S1024x1024 (shapeCast S1x1024 P4 shapeCasts_S1x1024_S1x1024 : FVec Ideal S1x1024 .f32) broadcasts_S1x1024_S1024x1024)

/-- A block's row sums from zero, divided by the row length, as a column. -/
def meanB (y : FVec Ideal S1024x1024 .f32) : FVec Ideal S1024x1 .f32 :=
  divf
    (shapeCast S1024x1
      (multiReduction (F := Ideal) .add [1] S1024 y 0x00000000#32 reduces_S1024x1024_S1024 (.inl rfl) rfl : FVec Ideal S1024 .f32)
      shapeCasts_S1024_S1024x1 : FVec Ideal S1024x1 .f32)
    (broadcast S1024x1 (Scalar.ofBits (F := Ideal) .f32 0x44800000#32))

/-- Each entry's deviation from its row's mean. -/
def devB (y : FVec Ideal S1024x1024 .f32) : FVec Ideal S1024x1024 .f32 :=
  subf y (broadcastTo S1024x1024 (meanB y) broadcasts_S1024x1_S1024x1024)

/-- The deviations times the reciprocal root of the row's variance plus ε. -/
def normB (y : FVec Ideal S1024x1024 .f32) : FVec Ideal S1024x1024 .f32 :=
  mulf (devB y)
    (broadcastTo S1024x1024
      (rsqrt (addf (meanB (mulf (devB y) (devB y))) (broadcast S1024x1 (Scalar.ofBits (F := Ideal) .f32 0x3727C5AC#32))))
      broadcasts_S1024x1_S1024x1024)

/-- The body's arithmetic up to the scale and shift is the normalised linear block. -/
theorem pay2_eq : k0_pay2 (F := Ideal) P0 P1 P2 P3 P4 = normB (linB P0 P1 P2 P3 P4) := rfl

/-! ## The stages at an entry -/

/-- The first product into the zero splat at entry `(p, n)`: the sum along row `p` and column `n`. -/
theorem mm1_apply (A : FVec Ideal S1024x256 .bf16) (B : FVec Ideal S256x2048 .bf16) (p : Fin 1024) (n : Fin 2048) :
    matmul dot_S1024x256_S256x2048_S1024x2048_1_0_0_1_n_n none A B (constant S1024x2048 .f32 0x00000000#32) (ix2 p n)
      = ∑ k : Fin 256, A (ix2 p k) * B (ix2 k n) :=
  PlainMatmul.matmul_zero_apply dot_S1024x256_S256x2048_S1024x2048_1_0_0_1_n_n
    dot_S1024x256_S256x2048_S1024x2048_1_0_0_1_n_n_wf rfl none A B p n

/-- The second product into the zero splat at entry `(p, j)`. -/
theorem mm2_apply (A : FVec Ideal S1024x2048 .bf16) (B : FVec Ideal S2048x1024 .bf16) (p : Fin 1024) (j : Fin 1024) :
    matmul dot_S1024x2048_S2048x1024_S1024x1024_1_0_0_1_n_n none A B (constant S1024x1024 .f32 0x00000000#32) (ix2 p j)
      = ∑ n : Fin 2048, A (ix2 p n) * B (ix2 n j) :=
  PlainMatmul.matmul_zero_apply dot_S1024x2048_S2048x1024_S1024x1024_1_0_0_1_n_n
    dot_S1024x2048_S2048x1024_S1024x1024_1_0_0_1_n_n_wf rfl none A B p j

/-- Hidden unit `n` of row `p` of the block. -/
theorem hidB_apply (p : Fin 1024) (n : Fin 2048) :
    hidB P0 P1 P2 (ix2 p n)
      = Cert.Spec.hidden (fun k => P0 (ix2 p k)) (fun k n => P1 (ix2 k n)) (fun n => P2 (ix2 (0 : Fin 1) n)) n := by
  unfold hidB Cert.Spec.hidden
  rw [maximumf_apply, addf_apply, mm1_apply, broadcastTo_1b_ab_apply, broadcast_apply]
  simp only [truncf_apply, shapeCast_self]
  rfl

/-- Output `j` of the second linear layer on row `p` of the block. -/
theorem linB_apply (p : Fin 1024) (j : Fin 1024) :
    linB P0 P1 P2 P3 P4 (ix2 p j)
      = Cert.Spec.lin (fun k => P0 (ix2 p k)) (fun k n => P1 (ix2 k n)) (fun n => P2 (ix2 (0 : Fin 1) n))
          (fun n j => P3 (ix2 n j)) (fun j => P4 (ix2 (0 : Fin 1) j)) j := by
  unfold linB Cert.Spec.lin
  rw [addf_apply, mm2_apply, broadcastTo_1b_ab_apply]
  simp only [truncf_apply, shapeCast_self, hidB_apply]

/-- A block's lane sum from the zero word, at row `p`: the plain sum over the row. -/
theorem rowSum_apply (y : FVec Ideal S1024x1024 .f32) (hφ : FKind.Formats .f32)
    (hacc : (0x00000000#32 : BitVec 32) = 0x00000000#32) (p : Fin 1024) :
    multiReduction (F := Ideal) .add [1] S1024 y 0x00000000#32 reduces_S1024x1024_S1024 hφ hacc (ix1 p)
      = ∑ j : Fin 1024, y (ix2 p j) :=
  (Ideal.multiReduction_add_single y 0x00000000#32 reduces_S1024x1024_S1024 hφ hacc (ix1 p)).trans
    (Finset.sum_congr rfl fun k _ => congrArg y (Cert.LibColumn.lift_last_ix2 reduces_S1024x1024_S1024 p k))

/-- A row's mean: the plain sum over the row divided by the row length. -/
theorem meanB_apply (y : FVec Ideal S1024x1024 .f32) (p : Fin 1024) :
    meanB y (ix2 p (0 : Fin 1)) = Ideal.div (∑ j : Fin 1024, y (ix2 p j)) Cert.Spec.countW := by
  unfold meanB
  rw [divf_apply, Cert.LibColumn.shapeCast_a_a1_apply, broadcast_apply]
  exact congrArg (fun s => Ideal.div s Cert.Spec.countW) (rowSum_apply y _ _ p)

/-- A deviation: the entry less its row's mean. -/
theorem devB_apply (y : FVec Ideal S1024x1024 .f32) (p q : Fin 1024) :
    devB y (ix2 p q) = y (ix2 p q) - Ideal.div (∑ j : Fin 1024, y (ix2 p j)) Cert.Spec.countW := by
  unfold devB
  rw [subf_apply, Cert.LibColumn.broadcastTo_a1_ab_apply, meanB_apply]

/-- An entry of the normalised block. -/
theorem normB_apply (y : FVec Ideal S1024x1024 .f32) (p q : Fin 1024) :
    normB y (ix2 p q)
      = devB y (ix2 p q)
        * Ideal.rsqrt (Ideal.div (∑ j : Fin 1024, devB y (ix2 p j) * devB y (ix2 p j)) Cert.Spec.countW + Cert.Spec.epsW) := by
  unfold normB
  rw [mulf_apply, Cert.LibColumn.broadcastTo_a1_ab_apply]
  show devB y (ix2 p q) * Ideal.rsqrt ((addf (meanB (mulf (devB y) (devB y))) _) (ix2 p (0 : Fin 1))) = _
  rw [addf_apply, meanB_apply, broadcast_apply]
  rfl

/-- Entry `(p, q)` of the body's normalised value: the layer's deviation at `q` on row `p` of the block, times the
    reciprocal root of that row's variance plus ε. -/
theorem pay2_apply (p q : Fin 1024) :
    k0_pay2 (F := Ideal) P0 P1 P2 P3 P4 (ix2 p q)
      = Cert.Spec.dev (fun k => P0 (ix2 p k)) (fun k n => P1 (ix2 k n)) (fun n => P2 (ix2 (0 : Fin 1) n))
            (fun n j => P3 (ix2 n j)) (fun j => P4 (ix2 (0 : Fin 1) j)) q
        * Ideal.rsqrt (Cert.Spec.var (fun k => P0 (ix2 p k)) (fun k n => P1 (ix2 k n)) (fun n => P2 (ix2 (0 : Fin 1) n))
            (fun n j => P3 (ix2 n j)) (fun j => P4 (ix2 (0 : Fin 1) j)) + Cert.Spec.epsW) := by
  rw [pay2_eq, normB_apply]
  simp only [devB_apply, linB_apply]
  rfl

end Cert.KernelIdeal.Payload

end
-- ==== Proof.KernelHost.lean ====
/-
  What the kernel's region finds in the arrays it stages, as terms of the argument arrays: the sinusoidal encoding
  of the coordinates (each coordinate times each inverse wavelength, sine and cosine side by side along a new last
  axis, the three trailing axes merged into one of length 256) for the block input, the two weight matrices through
  a change of float format, and each bias, scale and shift vector laid out as a one-row array.
-/
import proofs.«148274_j41790031790624_1_alg».proof.Proof.Gen.KernelIdeal.Frame
import Idealize.ShloMosaic.Lib.StableHlo.Run

noncomputable section

namespace Cert.KernelIdeal.HostValue

open Cert.KernelIdeal Cert.KernelIdeal.Gen Idealize.ShloMosaic Idealize.ShloMosaic.TcCoe Idealize.SL.Sem
  Idealize.ShloMosaic.StableHlo

variable {F : FTy → Type} [FloatOps F]

/-- The 64 inverse wavelengths, as the program's literal table lists them. -/
def freqs : FVec F S64 .f32 := fun i => FloatOps.ofBits .f32 (lit0 (S64.rowMajor i))

/-- The encoding of the coordinates. -/
def enc (a0 : FVec F S131072x2 .f32) : FVec F S131072x256 .f32 :=
  let phase : FVec F S131072x2x64 .f32 :=
    mulf (broadcastInDim S131072x2x64 ![0, 1, 2] bcast_S131072x2x1_S131072x2x64_0_1_2
            (broadcastInDim S131072x2x1 ![0, 1] bcast_S131072x2_S131072x2x1_0_1 a0))
         (broadcastInDim S131072x2x64 ![0, 1, 2] bcast_S1x1x64_S131072x2x64_0_1_2
            (broadcastInDim S1x1x64 ![2] bcast_S64_S1x1x64_2 (freqs (F := F))))
  shapeCast S131072x256
    (concatenate S131072x2x64x2 3
      [⟨S131072x2x64x1, broadcastInDim S131072x2x64x1 ![0, 1, 2] bcast_S131072x2x64_S131072x2x64x1_0_1_2 (Host.sin phase)⟩,
       ⟨S131072x2x64x1, broadcastInDim S131072x2x64x1 ![0, 1, 2] bcast_S131072x2x64_S131072x2x64x1_0_1_2 (Host.cos phase)⟩]
      concatenates_S131072x2x64x1_S131072x2x64x1_S131072x2x64x2_d3)
    shapeCasts_S131072x2x64x2_S131072x256

variable (m : (ℓ : Loc nD τ sig) → Buf (Elt F) ℓ)

/-- The block input is the encoding of the coordinates. -/
theorem V_enc (c : Dev nD) :
    (V m c main_v10 : FVec F S131072x256 .f32) = enc (m ((c : Thread nD τ).loc main_arg0)) := by
  dsimp only [V, hostOps0]; after_results; rfl

/-- The first weights, through the change of format. -/
theorem V_w1 (c : Dev nD) :
    (V m c main_v11 : FVec F S256x2048 .bf16) = truncf .bf16 (m ((c : Thread nD τ).loc main_arg1)) bitsLt_bf16_f32 := by
  dsimp only [V, hostOps0]; after_results

/-- The second weights, through the change of format. -/
theorem V_w2 (c : Dev nD) :
    (V m c main_v12 : FVec F S2048x1024 .bf16) = truncf .bf16 (m ((c : Thread nD τ).loc main_arg3)) bitsLt_bf16_f32 := by
  dsimp only [V, hostOps0]; after_results

/-- The first bias as a one-row array. -/
theorem V_b1 (c : Dev nD) :
    (V m c main_v13 : FVec F S1x2048 .f32) = shapeCast S1x2048 (m ((c : Thread nD τ).loc main_arg2)) shapeCasts_S2048_S1x2048 := by
  dsimp only [V, hostOps0]; after_results; rfl

/-- The second bias as a one-row array. -/
theorem V_b2 (c : Dev nD) :
    (V m c main_v14 : FVec F S1x1024 .f32) = shapeCast S1x1024 (m ((c : Thread nD τ).loc main_arg4)) shapeCasts_S1024_S1x1024 := by
  dsimp only [V, hostOps0]; after_results; rfl

/-- The scale as a one-row array. -/
theorem V_gamma (c : Dev nD) :
    (V m c main_v15 : FVec F S1x1024 .f32) = shapeCast S1x1024 (m ((c : Thread nD τ).loc main_arg5)) shapeCasts_S1024_S1x1024 := by
  dsimp only [V, hostOps0]; after_results; rfl

/-- The shift as a one-row array. -/
theorem V_beta (c : Dev nD) :
    (V m c main_v16 : FVec F S1x1024 .f32) = shapeCast S1x1024 (m ((c : Thread nD τ).loc main_arg6)) shapeCasts_S1024_S1x1024 := by
  dsimp only [V, hostOps0]; after_results; rfl

end Cert.KernelIdeal.HostValue

end
-- ==== Proof.KernelArray.lean ====
/-
  From blocks to the whole array.

  The kernel walks 128 grid points; point `t` reads rows `1024·t … 1024·t + 1023` of the encoded input, the whole of
  the weights, biases, scale and shift at every point, and writes rows `1024·t … 1024·t + 1023` of the result. What it
  writes at row `p` of the block and column `q` is the layer's output `q` on that row of the encoded input, so the
  block point `t` writes back is block `t` of ONE function `G` of the arrays: the layer applied to every row. The 128
  blocks tile the result (row `r` lies in the block of point `r / 1024`), so after the run the result array is `G`.
-/
import proofs.«148274_j41790031790624_1_alg».proof.Proof.Gen.KernelIdeal.Value
import proofs.«148274_j41790031790624_1_alg».proof.Proof.KernelPayload
import proofs.«148274_j41790031790624_1_alg».proof.Proof.KernelHost
import proofs.«148274_j41790031790624_1_alg».proof.Proof.Spec
import Idealize.ShloMosaic.Lib.ValueIdx
import Idealize.ShloMosaic.Lib.ValueLayout
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ) (ρ : Dev nD → PrngReg)

/-! ## The layer on every row -/

/-- The layer applied to every row of an encoded input `X`: entry `(r, q)` is output `q` on row `r`. -/
def G (X : FVec Ideal S131072x256 .f32) (a1 : FVec Ideal S256x2048 .f32) (a2 : FVec Ideal S2048 .f32)
    (a3 : FVec Ideal S2048x1024 .f32) (a4 a5 a6 : FVec Ideal S1024 .f32) : FVec Ideal S131072x1024 .f32 :=
  fun i => Cert.Spec.out (fun k => X (ix2 (i 0) k)) (fun k n => a1 (ix2 k n)) (fun n => a2 (ix1 n))
    (fun n j => a3 (ix2 n j)) (fun j => a4 (ix1 j)) (fun j => a5 (ix1 j)) (fun j => a6 (ix1 j)) (i 1)

theorem G_apply (X : FVec Ideal S131072x256 .f32) (a1 : FVec Ideal S256x2048 .f32) (a2 : FVec Ideal S2048 .f32)
    (a3 : FVec Ideal S2048x1024 .f32) (a4 a5 a6 : FVec Ideal S1024 .f32) (r : Fin 131072) (q : Fin 1024) :
    G X a1 a2 a3 a4 a5 a6 (ix2 r q)
      = Cert.Spec.out (fun k => X (ix2 r k)) (fun k n => a1 (ix2 k n)) (fun n => a2 (ix1 n))
          (fun n j => a3 (ix2 n j)) (fun j => a4 (ix1 j)) (fun j => a5 (ix1 j)) (fun j => a6 (ix1 j)) q := rfl

/-! ## The index maps over the grid -/

theorem hz2 : (![0, 0] : Fin 2 → Nat) = fun _ => 0 := funext fun a => by fin_cases a <;> rfl

/-- Decided over the 128 points: the block input and the result move one block of rows per point and stay at column
    block 0; every other window stays at block (0, 0). -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Row `p` of point `t`'s block is row `1024·t + p` of the array. -/
def rowOf (t : Fin cfg0.N) (p : Fin 1024) : Fin 131072 :=
  ⟨t.val * 1024 + p.val, by have ht : t.val < 128 := t.isLt; have hp := p.isLt; omega⟩

/-! ## The input windows' blocks at explicit coordinates -/

/-- The block input at `(p, k)` of point `t` is the encoded input at row `1024·t + p`. -/
theorem blk0_apply (c : Dev nD) (t : Fin cfg0.N) (p : Fin 1024) (k : Fin 256) :
    iblk m c 0 t (ix2 p k) = V m c main_v10 (ix2 (rowOf t p) k) := by
  obtain ⟨e00, e01, -⟩ := idx_facts t
  show V m c main_v10 (((cfg0.win 0).blk t).view.emb (ix2 p k)) = V m c main_v10 (ix2 (rowOf t p) k)
  congr 1; funext a; apply Fin.ext
  match a with
  | ⟨0, _⟩ => show win0_0.index t (0 : Fin 2) * 1024 + 1 * p.val = t.val * 1024 + p.val; omega
  | ⟨1, _⟩ => show win0_0.index t (1 : Fin 2) * 256 + 1 * k.val = k.val; omega

/-- The first weights' block is the whole matrix, through the change of format. -/
theorem blk1_apply (c : Dev nD) (t : Fin cfg0.N) (k : Fin 256) (n : Fin 2048) :
    iblk m c 1 t (ix2 k n) = m ((c : Thread nD τ).loc main_arg1) (ix2 k n) := by
  obtain ⟨-, -, -, -, e0, e1, -⟩ := idx_facts t
  have h : ((cfg0.win 1).blk t).view.emb (ix2 k n) = (ix2 k n : S256x2048.Idx) := by
    funext a; apply Fin.ext
    match a with
    | ⟨0, _⟩ => show win0_1.index t (0 : Fin 2) * 256 + 1 * k.val = k.val; omega
    | ⟨1, _⟩ => show win0_1.index t (1 : Fin 2) * 2048 + 1 * n.val = n.val; omega
  show V m c main_v11 (((cfg0.win 1).blk t).view.emb (ix2 k n)) = _
  rw [h, show (V m c main_v11 : FVec Ideal S256x2048 .bf16) = _ from HostValue.V_w1 m c]
  rfl

/-- The second weights' block is the whole matrix, through the change of format. -/
theorem blk3_apply (c : Dev nD) (t : Fin cfg0.N) (n : Fin 2048) (j : Fin 1024) :
    iblk m c 3 t (ix2 n j) = m ((c : Thread nD τ).loc main_arg3) (ix2 n j) := by
  obtain ⟨-, -, -, -, -, -, -, -, e0, e1, -⟩ := idx_facts t
  have h : ((cfg0.win 3).blk t).view.emb (ix2 n j) = (ix2 n j : S2048x1024.Idx) := by
    funext a; apply Fin.ext
    match a with
    | ⟨0, _⟩ => show win0_3.index t (0 : Fin 2) * 2048 + 1 * n.val = n.val; omega
    | ⟨1, _⟩ => show win0_3.index t (1 : Fin 2) * 1024 + 1 * j.val = j.val; omega
  show V m c main_v12 (((cfg0.win 3).blk t).view.emb (ix2 n j)) = _
  rw [h, show (V m c main_v12 : FVec Ideal S2048x1024 .bf16) = _ from HostValue.V_w2 m c]
  rfl

/-- The first bias's block is the vector as one row. -/
theorem blk2_apply (c : Dev nD) (t : Fin cfg0.N) (n : Fin 2048) :
    iblk m c 2 t (ix2 (0 : Fin 1) n) = m ((c : Thread nD τ).loc main_arg2) (ix1 n) := by
  obtain ⟨-, -, -, -, -, -, e0, e1, -⟩ := idx_facts t
  have h : ((cfg0.win 2).blk t).view.emb (ix2 (0 : Fin 1) n) = (ix2 (0 : Fin 1) n : S1x2048.Idx) := by
    funext a; apply Fin.ext
    match a with
    | ⟨0, _⟩ => show win0_2.index t (0 : Fin 2) * 1 + 1 * 0 = 0; omega
    | ⟨1, _⟩ => show win0_2.index t (1 : Fin 2) * 2048 + 1 * n.val = n.val; omega
  show V m c main_v13 (((cfg0.win 2).blk t).view.emb (ix2 (0 : Fin 1) n)) = _
  rw [h, show (V m c main_v13 : FVec Ideal S1x2048 .f32) = _ from HostValue.V_b1 m c]
  exact shapeCast_a_1a_apply _ _ _ _

/-- The second bias's, the scale's and the shift's blocks are the vectors as one row. -/
theorem blk4_apply (c : Dev nD) (t : Fin cfg0.N) (j : Fin 1024) :
    iblk m c 4 t (ix2 (0 : Fin 1) j) = m ((c : Thread nD τ).loc main_arg4) (ix1 j) := by
  obtain ⟨-, -, -, -, -, -, -, -, -, -, e0, e1, -⟩ := idx_facts t
  have h : ((cfg0.win 4).blk t).view.emb (ix2 (0 : Fin 1) j) = (ix2 (0 : Fin 1) j : S1x1024.Idx) := by
    funext a; apply Fin.ext
    match a with
    | ⟨0, _⟩ => show win0_4.index t (0 : Fin 2) * 1 + 1 * 0 = 0; omega
    | ⟨1, _⟩ => show win0_4.index t (1 : Fin 2) * 1024 + 1 * j.val = j.val; omega
  show V m c main_v14 (((cfg0.win 4).blk t).view.emb (ix2 (0 : Fin 1) j)) = _
  rw [h, show (V m c main_v14 : FVec Ideal S1x1024 .f32) = _ from HostValue.V_b2 m c]
  exact shapeCast_a_1a_apply _ _ _ _

theorem blk5_apply (c : Dev nD) (t : Fin cfg0.N) (j : Fin 1024) :
    iblk m c 5 t (ix2 (0 : Fin 1) j) = m ((c : Thread nD τ).loc main_arg5) (ix1 j) := by
  obtain ⟨-, -, -, -, -, -, -, -, -, -, -, -, e0, e1, -⟩ := idx_facts t
  have h : ((cfg0.win 5).blk t).view.emb (ix2 (0 : Fin 1) j) = (ix2 (0 : Fin 1) j : S1x1024.Idx) := by
    funext a; apply Fin.ext
    match a with
    | ⟨0, _⟩ => show win0_5.index t (0 : Fin 2) * 1 + 1 * 0 = 0; omega
    | ⟨1, _⟩ => show win0_5.index t (1 : Fin 2) * 1024 + 1 * j.val = j.val; omega
  show V m c main_v15 (((cfg0.win 5).blk t).view.emb (ix2 (0 : Fin 1) j)) = _
  rw [h, show (V m c main_v15 : FVec Ideal S1x1024 .f32) = _ from HostValue.V_gamma m c]
  exact shapeCast_a_1a_apply _ _ _ _

theorem blk6_apply (c : Dev nD) (t : Fin cfg0.N) (j : Fin 1024) :
    iblk m c 6 t (ix2 (0 : Fin 1) j) = m ((c : Thread nD τ).loc main_arg6) (ix1 j) := by
  obtain ⟨-, -, -, -, -, -, -, -, -, -, -, -, -, -, e0, e1⟩ := idx_facts t
  have h : ((cfg0.win 6).blk t).view.emb (ix2 (0 : Fin 1) j) = (ix2 (0 : Fin 1) j : S1x1024.Idx) := by
    funext a; apply Fin.ext
    match a with
    | ⟨0, _⟩ => show win0_6.index t (0 : Fin 2) * 1 + 1 * 0 = 0; omega
    | ⟨1, _⟩ => show win0_6.index t (1 : Fin 2) * 1024 + 1 * j.val = j.val; omega
  show V m c main_v16 (((cfg0.win 6).blk t).view.emb (ix2 (0 : Fin 1) j)) = _
  rw [h, show (V m c main_v16 : FVec Ideal S1x1024 .f32) = _ from HostValue.V_beta m c]
  exact shapeCast_a_1a_apply _ _ _ _

/-- Entry `(p, q)` of the result's block at point `t` sits at `(1024·t + p, q)` of the array. -/
theorem emb7_apply (t : Fin cfg0.N) (p q : Fin 1024) :
    ((cfg0.win 7).blk t).view.emb (ix2 p q) = (ix2 (rowOf t p) q : S131072x1024.Idx) := by
  obtain ⟨-, -, e0, e1, -⟩ := idx_facts t
  funext a; apply Fin.ext
  match a with
  | ⟨0, _⟩ => show win0_7.index t (0 : Fin 2) * 1024 + 1 * p.val = t.val * 1024 + p.val; omega
  | ⟨1, _⟩ => show win0_7.index t (1 : Fin 2) * 1024 + 1 * q.val = q.val; omega

/-! ## What a point leaves in the result's block -/

/-- Entry `(p, q)` of the block the body leaves, over arbitrary loads: the layer's output `q` on row `p` of the block. -/
theorem E7_apply (P0 : FVec Ideal S1024x256 .f32) (P1 : FVec Ideal S256x2048 .bf16) (P2 : FVec Ideal S1x2048 .f32)
    (P3 : FVec Ideal S2048x1024 .bf16) (P4 P5 P6 : FVec Ideal S1x1024 .f32) (p q : Fin 1024) :
    Value.E7 (F := Ideal) P0 P1 P2 P3 P4 P5 P6 (ix2 p q)
      = Cert.Spec.out (fun k => P0 (ix2 p k)) (fun k n => P1 (ix2 k n)) (fun n => P2 (ix2 (0 : Fin 1) n))
          (fun n j => P3 (ix2 n j)) (fun j => P4 (ix2 (0 : Fin 1) j)) (fun j => P5 (ix2 (0 : Fin 1) j))
          (fun j => P6 (ix2 (0 : Fin 1) j)) q := by
  have h0 : Value.ix7_0 (ix2 p q) = (ix2 p q : S1024x1024.Idx) := by
    funext a; match a with | ⟨0, _⟩ => rfl | ⟨1, _⟩ => rfl
  have h1 : Value.ix7_1 (ix2 p q) = (ix2 (0 : Fin 1) q : S1x1024.Idx) := by
    funext a; match a with | ⟨0, _⟩ => rfl | ⟨1, _⟩ => rfl
  have h2 : Value.ix7_2 (ix2 p q) = (ix2 (0 : Fin 1) q : S1x1024.Idx) := by
    funext a; match a with | ⟨0, _⟩ => rfl | ⟨1, _⟩ => rfl
  show k0_pay2 (F := Ideal) P0 P1 P2 P3 P4 (Value.ix7_0 (ix2 p q)) * P5 (Value.ix7_1 (ix2 p q)) + P6 (Value.ix7_2 (ix2 p q)) = _
  rw [h0, h1, h2, Payload.pay2_apply]
  rfl

/-- Entry `(p, q)` of what the body leaves in the result's buffer, over arbitrary contents of the input buffers. -/
theorem out7_apply (x0 : FVec Ideal S1024x256 .f32) (x1 : FVec Ideal S256x2048 .bf16) (x2 : FVec Ideal S1x2048 .f32)
    (x3 : FVec Ideal S2048x1024 .bf16) (x4 x5 x6 : FVec Ideal S1x1024 .f32) (p q : Fin 1024) :
    out0_7 (F := Ideal) x0 x1 x2 x3 x4 x5 x6 (ix2 p q)
      = Cert.Spec.out (fun k => x0 (ix2 p k)) (fun k n => x1 (ix2 k n)) (fun n => x2 (ix2 (0 : Fin 1) n))
          (fun n j => x3 (ix2 n j)) (fun j => x4 (ix2 (0 : Fin 1) j)) (fun j => x5 (ix2 (0 : Fin 1) j))
          (fun j => x6 (ix2 (0 : Fin 1) j)) q := by
  unfold out0_7
  rw [Value.canon7_eq]
  simp only [View.ld_unit_zero (S := S1024x256) hz2, View.ld_unit_zero (S := S256x2048) hz2,
    View.ld_unit_zero (S := S1x2048) hz2, View.ld_unit_zero (S := S2048x1024) hz2, View.ld_unit_zero (S := S1x1024) hz2]
  exact E7_apply x0 x1 x2 x3 x4 x5 x6 p q

/-- WHAT POINT `t` WRITES BACK is block `t` of the layer on every row of the encoded input. -/
theorem flushed7_eq (c : Dev nD) (t : Fin cfg0.N) :
    (dats m 0 c).flushed 7 t
      = ((cfg0.win 7).blk t).view.read (Elt Ideal)
          (G (V m c main_v10) (m ((c : Thread nD τ).loc main_arg1)) (m ((c : Thread nD τ).loc main_arg2))
            (m ((c : Thread nD τ).loc main_arg3)) (m ((c : Thread nD τ).loc main_arg4))
            (m ((c : Thread nD τ).loc main_arg5)) (m ((c : Thread nD τ).loc main_arg6))) := by
  rw [Value.flushed7]
  funext y
  obtain ⟨p, q, rfl⟩ : ∃ (p q : Fin 1024), y = ix2 p q := ⟨y 0, y 1, eq_ix2 y⟩
  show out0_7 (F := Ideal) (iblk m c 0 t) (iblk m c 1 t) (iblk m c 2 t) (iblk m c 3 t) (iblk m c 4 t) (iblk m c 5 t) (iblk m c 6 t) (ix2 p q)
    = G (V m c main_v10) (m ((c : Thread nD τ).loc main_arg1)) (m ((c : Thread nD τ).loc main_arg2))
        (m ((c : Thread nD τ).loc main_arg3)) (m ((c : Thread nD τ).loc main_arg4))
        (m ((c : Thread nD τ).loc main_arg5)) (m ((c : Thread nD τ).loc main_arg6)) (((cfg0.win 7).blk t).view.emb (ix2 p q))
  rw [emb7_apply, G_apply]
  refine (out7_apply (iblk m c 0 t) (iblk m c 1 t) (iblk m c 2 t) (iblk m c 3 t) (iblk m c 4 t) (iblk m c 5 t) (iblk m c 6 t) p q).trans ?_
  simp only [blk0_apply, blk1_apply, blk2_apply, blk3_apply, blk4_apply, blk5_apply, blk6_apply]

/-! ## The blocks tile the result -/

/-- An index of the result is in point `t`'s block iff each coordinate is in the block's range on its axis. -/
theorem mem_blk7 (t : Fin cfg0.N) (i : S131072x1024.Idx) :
    i ∈ ((cfg0.win 7).blk t).view.set ↔ ∀ a : Fin 2, win0_7.index t a * S1024x1024.size a ≤ (i a).val ∧ (i a).val < win0_7.index t a * S1024x1024.size a + S1024x1024.size a := by
  show i ∈ ((View.whole main_v17).slice (win0_7.rect t)).set ↔ _
  rw [View.set_slice_whole, Rect.mem_set_unit]
  exact Iff.rfl

/-- Every index of the result lies in the block of the point its row falls in. -/
theorem cover7 (i : S131072x1024.Idx) :
    ∃ t : Fin cfg0.N, (cfg0.win 7).flush t = true ∧ i ∈ ((cfg0.win 7).blk t).view.set := by
  have hi0 : (i 0).val < 131072 := (i 0).isLt
  have hi1 : (i 1).val < 1024 := (i 1).isLt
  let t : Fin cfg0.N := ⟨(i 0).val / 1024, by show (i 0).val / 1024 < 128; omega⟩
  have ht : t.val = (i 0).val / 1024 := rfl
  obtain ⟨-, -, e0, e1, -⟩ := idx_facts t
  refine ⟨t, flush0_7 t, ?_⟩
  rw [mem_blk7]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 1024 ≤ (i 1).val ∧ (i 1).val < win0_7.index t (1 : Fin 2) * 1024 + 1024; omega

/-! ## The result array, and the run -/

/-- THE RESULT after the run: the layer on every row of the encoding of the coordinates. -/
theorem final7 (c : Dev nD) :
    (dats m 0 c).arrAt 7 cfg0.N
      = G (HostValue.enc (m ((c : Thread nD τ).loc main_arg0))) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  rw [← show (V m c main_v10 : FVec Ideal S131072x256 .f32) = _ from HostValue.V_enc m c]
  exact (dats m 0 c).arrAt_eq_of_cover 7 _ (fun t _ => flushed7_eq m c t) cover7

/-- The kernel's run with its result named: the layer on every row of the encoded coordinates, the arguments unchanged. -/
theorem run : θ_run defs (onTc (τ := τ) (main (F := Ideal))) ⟨m, fun _ => 0, ρ⟩ fun r => ∀ c : Dev nD,
      r.2.mem ((c : Thread nD τ).loc main_v17)
        = G (HostValue.enc (m ((c : Thread nD τ).loc main_arg0))) (m ((c : Thread nD τ).loc main_arg1))
            (m ((c : Thread nD τ).loc main_arg2)) (m ((c : Thread nD τ).loc main_arg3))
            (m ((c : Thread nD τ).loc main_arg4)) (m ((c : Thread nD τ).loc main_arg5))
            (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2⟩) (Value.run_blocks m ρ)

end Cert.KernelIdeal.ArrayValue

end
-- ==== Proof.RefTerm.lean ====
/-
  The reference's result as a term of its argument arrays, stage by stage and generic in the float instance: the
  sinusoidal encoding of the coordinates (`enc`), the hidden layer with its ramp (`hiddenArr`), the second linear
  layer (`linArr`), and the normalisation over each row (`meanArr`, `devArr`, `normArr`). `refTerm` composes them in
  the order the program runs them. The variance is the mean of the squared deviations, so `meanArr` serves twice.
-/
import proofs.«148274_j41790031790624_1_alg».proof.ReferenceIdeal

noncomputable section

namespace Cert.ReferenceIdeal.RefValue

open Cert.ReferenceIdeal Idealize.ShloMosaic Idealize.ShloMosaic.TcCoe

variable {F : FTy → Type} [FloatOps F] [Facts]
open Facts₀ Facts

/-- The 64 inverse wavelengths, as the program's literal table lists them. -/
def freqs : FVec F S64 .f32 := fun i => FloatOps.ofBits .f32 (lit0 (S64.rowMajor i))

/-- The encoding of the coordinates: each coordinate times each inverse wavelength, its sine and cosine side by side
    along a new last axis, the three trailing axes then merged into one of length 256. -/
def enc (a0 : FVec F S131072x2 .f32) : FVec F S131072x256 .f32 :=
  let phase : FVec F S131072x2x64 .f32 :=
    mulf (broadcastInDim S131072x2x64 ![0, 1, 2] bcast_S131072x2x1_S131072x2x64_0_1_2
            (broadcastInDim S131072x2x1 ![0, 1] bcast_S131072x2_S131072x2x1_0_1 a0))
         (broadcastInDim S131072x2x64 ![0, 1, 2] bcast_S1x1x64_S131072x2x64_0_1_2
            (broadcastInDim S1x1x64 ![2] bcast_S64_S1x1x64_2 (freqs (F := F))))
  shapeCast S131072x256
    (concatenate S131072x2x64x2 3
      [⟨S131072x2x64x1, broadcastInDim S131072x2x64x1 ![0, 1, 2] bcast_S131072x2x64_S131072x2x64x1_0_1_2 (Host.sin phase)⟩,
       ⟨S131072x2x64x1, broadcastInDim S131072x2x64x1 ![0, 1, 2] bcast_S131072x2x64_S131072x2x64x1_0_1_2 (Host.cos phase)⟩]
      concatenates_S131072x2x64x1_S131072x2x64x1_S131072x2x64x2_d3)
    shapeCasts_S131072x2x64x2_S131072x256

/-- The hidden layer: the product with the first weights, the bias along the rows, the ramp against zero. -/
def hiddenArr (x : FVec F S131072x256 .f32) (a1 : FVec F S256x2048 .f32) (a2 : FVec F S2048 .f32) :
    FVec F S131072x2048 .f32 :=
  maximumf
    (addf (Host.dotGeneral dot_S131072x256_S256x2048_S131072x2048_1_0_0_1_n_n none x a1)
      (broadcastInDim S131072x2048 ![0, 1] bcast_S1x2048_S131072x2048_0_1
        (broadcastInDim S1x2048 ![1] bcast_S2048_S1x2048_1 a2)))
    (broadcastInDim S131072x2048 ![] bcast_S_S131072x2048 (constant S_ .f32 0x00000000#32))

/-- The second linear layer: the product with the second weights and the bias along the rows. -/
def linArr (h : FVec F S131072x2048 .f32) (a3 : FVec F S2048x1024 .f32) (a4 : FVec F S1024 .f32) :
    FVec F S131072x1024 .f32 :=
  addf (Host.dotGeneral dot_S131072x2048_S2048x1024_S131072x1024_1_0_0_1_n_n none h a3)
    (broadcastInDim S131072x1024 ![0, 1] bcast_S1x1024_S131072x1024_0_1
      (broadcastInDim S1x1024 ![1] bcast_S1024_S1x1024_1 a4))

/-- Each row's sum from zero, divided by the row length, as a column. -/
def meanArr (y : FVec F S131072x1024 .f32) : FVec F S131072x1 .f32 :=
  Host.divf
    (broadcastInDim S131072x1 ![0] bcast_S131072_S131072x1_0
      (Host.reduceAdd y (constant S_ .f32 0x00000000#32) reducesTo_S131072x1024_S131072_d1 h_S_))
    (broadcastInDim S131072x1 ![] bcast_S_S131072x1 (constant S_ .f32 0x44800000#32))

/-- Each entry's deviation from its row's mean. -/
def devArr (y : FVec F S131072x1024 .f32) : FVec F S131072x1024 .f32 :=
  subf y (broadcastInDim S131072x1024 ![0, 1] bcast_S131072x1_S131072x1024_0_1 (meanArr y))

/-- The normalisation: the deviation times the reciprocal root of the variance plus ε, scaled by γ and shifted by β
    along the rows. -/
def normArr (y : FVec F S131072x1024 .f32) (a5 a6 : FVec F S1024 .f32) : FVec F S131072x1024 .f32 :=
  addf
    (mulf
      (mulf (devArr y)
        (broadcastInDim S131072x1024 ![0, 1] bcast_S131072x1_S131072x1024_0_1
          (Host.rsqrt (addf (meanArr (mulf (devArr y) (devArr y)))
            (broadcastInDim S131072x1 ![] bcast_S_S131072x1 (constant S_ .f32 0x3727C5AC#32))))))
      (broadcastInDim S131072x1024 ![0, 1] bcast_S1x1024_S131072x1024_0_1
        (broadcastInDim S1x1024 ![1] bcast_S1024_S1x1024_1 a5)))
    (broadcastInDim S131072x1024 ![0, 1] bcast_S1x1024_S131072x1024_0_1
      (broadcastInDim S1x1024 ![1] bcast_S1024_S1x1024_1 a6))

/-- The reference's result of its seven arguments. -/
def refTerm (a0 : FVec F S131072x2 .f32) (a1 : FVec F S256x2048 .f32) (a2 : FVec F S2048 .f32)
    (a3 : FVec F S2048x1024 .f32) (a4 a5 a6 : FVec F S1024 .f32) : FVec F S131072x1024 .f32 :=
  normArr (linArr (hiddenArr (enc a0) a1 a2) a3 a4) a5 a6

end Cert.ReferenceIdeal.RefValue

end
-- ==== Proof.LibAfter.lean ====
/-
  Two small general facts about the contents after a list of host operations. The contents after two lists in a row are
  the second list's contents from the first's. And each operation leaves, at its own result buffer, its function of its
  operands' contents, and at every other buffer what was there — which holds equally for a buffer read inside the operand
  list of a concatenation.
-/
import Idealize.ShloMosaic.Lib.StableHlo.Run

namespace Cert.LibAfter

open Idealize.ShloMosaic Idealize.ShloMosaic.StableHlo

/-- The contents after two lists of operations run one after the other. -/
theorem after_append {τ : Topo} {sig : RefSig} {Val : EltTy → Type}
    (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfter

/-- Each operation's result at its own buffer is its function of the operands' contents; at any other buffer the contents
    are unchanged. Applied operation by operation until no fold is left. -/
macro "after_results_rw" : tactic =>
  `(tactic| (repeat (first
      | rw [Idealize.ShloMosaic.StableHlo.nullary_result] | rw [Idealize.ShloMosaic.StableHlo.unary_result]
      | rw [Idealize.ShloMosaic.StableHlo.binary_result] | rw [Idealize.ShloMosaic.StableHlo.ternary_result]
      | rw [Idealize.ShloMosaic.StableHlo.quaternary_result] | rw [Idealize.ShloMosaic.StableHlo.reshape_result]
      | rw [Idealize.ShloMosaic.StableHlo.nary_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.reshape_result_ne]; rotate_left; decide)
      | (rw [Idealize.ShloMosaic.StableHlo.nary_result_ne]; rotate_left; decide))))
-- ==== Proof.RefRun.lean ====
/-
  The reference's run: its @main is a straight line of host operations, the ramp function's three operations standing
  inline where it is called, so every weakly fair execution ends with the result buffer at the stages' composed term
  of the arguments' launch contents and the arguments unchanged.

  The line is read in three stretches — the encoding, the two linear layers with the ramp between them, the
  normalisation — each over an arbitrary valuation: a stretch leaves at its last buffer its stage of what it read, and
  what it does not write as it found it. The contents after the whole line are the stretches' one after the other.
-/
import proofs.«148274_j41790031790624_1_alg».proof.Proof.Gen.ReferenceIdeal
import proofs.«148274_j41790031790624_1_alg».proof.Proof.RefTerm
import proofs.«148274_j41790031790624_1_alg».proof.Proof.LibAfter
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-- The encoding's 12 operations: the table of inverse wavelengths, the coordinates and the table broadcast to a common
    shape and multiplied, the sine and the cosine side by side along a new last axis, the trailing axes merged. -/
abbrev opsEnc : List (HloOp τ sig (Elt F)) :=
  [ nullary main_cst (fun i => FloatOps.ofBits .f32 (lit0 (S64.rowMajor i))),
    unary main_arg0 main_v0 (broadcastInDim S131072x2x1 ![0, 1] bcast_S131072x2_S131072x2x1_0_1 : (⟨S131072x2, .f32⟩ : BufTy).Contents (Elt F) → (⟨S131072x2x1, .f32⟩ : BufTy).Contents (Elt F)),
    unary main_cst main_v1 (broadcastInDim S1x1x64 ![2] bcast_S64_S1x1x64_2 : (⟨S64, .f32⟩ : BufTy).Contents (Elt F) → (⟨S1x1x64, .f32⟩ : BufTy).Contents (Elt F)),
    unary main_v0 main_v2 (broadcastInDim S131072x2x64 ![0, 1, 2] bcast_S131072x2x1_S131072x2x64_0_1_2 : (⟨S131072x2x1, .f32⟩ : BufTy).Contents (Elt F) → (⟨S131072x2x64, .f32⟩ : BufTy).Contents (Elt F)),
    unary main_v1 main_v3 (broadcastInDim S131072x2x64 ![0, 1, 2] bcast_S1x1x64_S131072x2x64_0_1_2 : (⟨S1x1x64, .f32⟩ : BufTy).Contents (Elt F) → (⟨S131072x2x64, .f32⟩ : BufTy).Contents (Elt F)),
    binary main_v2 main_v3 main_v4 (mulf : (⟨S131072x2x64, .f32⟩ : BufTy).Contents (Elt F) → (⟨S131072x2x64, .f32⟩ : BufTy).Contents (Elt F) → (⟨S131072x2x64, .f32⟩ : BufTy).Contents (Elt F)),
    unary main_v4 main_v5 (Host.sin : (⟨S131072x2x64, .f32⟩ : BufTy).Contents (Elt F) → (⟨S131072x2x64, .f32⟩ : BufTy).Contents (Elt F)),
    unary main_v4 main_v6 (Host.cos : (⟨S131072x2x64, .f32⟩ : BufTy).Contents (Elt F) → (⟨S131072x2x64, .f32⟩ : BufTy).Contents (Elt F)),
    unary main_v5 main_v7 (broadcastInDim S131072x2x64x1 ![0, 1, 2] bcast_S131072x2x64_S131072x2x64x1_0_1_2 : (⟨S131072x2x64, .f32⟩ : BufTy).Contents (Elt F) → (⟨S131072x2x64x1, .f32⟩ : BufTy).Contents (Elt F)),
    unary main_v6 main_v8 (broadcastInDim S131072x2x64x1 ![0, 1, 2] bcast_S131072x2x64_S131072x2x64x1_0_1_2 : (⟨S131072x2x64, .f32⟩ : BufTy).Contents (Elt F) → (⟨S131072x2x64x1, .f32⟩ : BufTy).Contents (Elt F)),
    binary main_v7 main_v8 main_v9 ((fun a b => concatenate S131072x2x64x2 3 [⟨S131072x2x64x1, a⟩, ⟨S131072x2x64x1, b⟩] concatenates_S131072x2x64x1_S131072x2x64x1_S131072x2x64x2_d3) : (⟨S131072x2x64x1, .f32⟩ : BufTy).Contents (Elt F) → (⟨S131072x2x64x1, .f32⟩ : BufTy).Contents (Elt F) → (⟨S131072x2x64x2, .f32⟩ : BufTy).Contents (Elt F)),
    reshape main_v9 main_v10 rfl shapeCasts_S131072x2x64x2_S131072x256 ]

/-- The two linear layers' 11 operations, the ramp's three (its zero, the zero broadcast, the maximum) between them. -/
abbrev opsLin : List (HloOp τ sig (Elt F)) :=
  [ binary main_v10 main_arg1 main_v11 ((fun l r => Host.dotGeneral dot_S131072x256_S256x2048_S131072x2048_1_0_0_1_n_n none l r) : (⟨S131072x256, .f32⟩ : BufTy).Contents (Elt F) → (⟨S256x2048, .f32⟩ : BufTy).Contents (Elt F) → (⟨S131072x2048, .f32⟩ : BufTy).Contents (Elt F)),
    unary main_arg2 main_v12 (broadcastInDim S1x2048 ![1] bcast_S2048_S1x2048_1 : (⟨S2048, .f32⟩ : BufTy).Contents (Elt F) → (⟨S1x2048, .f32⟩ : BufTy).Contents (Elt F)),
    unary main_v12 main_v13 (broadcastInDim S131072x2048 ![0, 1] bcast_S1x2048_S131072x2048_0_1 : (⟨S1x2048, .f32⟩ : BufTy).Contents (Elt F) → (⟨S131072x2048, .f32⟩ : BufTy).Contents (Elt F)),
    binary main_v11 main_v13 main_v14 (addf : (⟨S131072x2048, .f32⟩ : BufTy).Contents (Elt F) → (⟨S131072x2048, .f32⟩ : BufTy).Contents (Elt F) → (⟨S131072x2048, .f32⟩ : BufTy).Contents (Elt F)),
    TRef.nullary main_call0.cst (constant S_ .f32 0x00000000#32),
    TRef.unary main_call0.cst main_call0.v0 (broadcastInDim S131072x2048 ![] bcast_S_S131072x2048),
    TRef.binary (.of main_v14) main_call0.v0 main_call0.v1 maximumf,
    binary main_v15 main_arg3 main_v16 ((fun l r => Host.dotGeneral dot_S131072x2048_S2048x1024_S131072x1024_1_0_0_1_n_n none l r) : (⟨S131072x2048, .f32⟩ : BufTy).Contents (Elt F) → (⟨S2048x1024, .f32⟩ : BufTy).Contents (Elt F) → (⟨S131072x1024, .f32⟩ : BufTy).Contents (Elt F)),
    unary main_arg4 main_v17 (broadcastInDim S1x1024 ![1] bcast_S1024_S1x1024_1 : (⟨S1024, .f32⟩ : BufTy).Contents (Elt F) → (⟨S1x1024, .f32⟩ : BufTy).Contents (Elt F)),
    unary main_v17 main_v18 (broadcastInDim S131072x1024 ![0, 1] bcast_S1x1024_S131072x1024_0_1 : (⟨S1x1024, .f32⟩ : BufTy).Contents (Elt F) → (⟨S131072x1024, .f32⟩ : BufTy).Contents (Elt F)),
    binary main_v16 main_v18 main_v19 (addf : (⟨S131072x1024, .f32⟩ : BufTy).Contents (Elt F) → (⟨S131072x1024, .f32⟩ : BufTy).Contents (Elt F) → (⟨S131072x1024, .f32⟩ : BufTy).Contents (Elt F)) ]

/-- The normalisation's 29 operations: the row means, the deviations, their squares' row means, the reciprocal root,
    the scale and the shift along the rows. -/
abbrev opsNorm : List (HloOp τ sig (Elt F)) :=
  [ nullary main_cst_0 (constant S_ .f32 0x00000000#32),
    binary main_v19 main_cst_0 main_v20 ((fun x v => Host.reduceAdd x v reducesTo_S131072x1024_S131072_d1 h_S_) : (⟨S131072x1024, .f32⟩ : BufTy).Contents (Elt F) → (⟨S_, .f32⟩ : BufTy).Contents (Elt F) → (⟨S131072, .f32⟩ : BufTy).Contents (Elt F)),
    unary main_v20 main_v21 (broadcastInDim S131072x1 ![0] bcast_S131072_S131072x1_0 : (⟨S131072, .f32⟩ : BufTy).Contents (Elt F) → (⟨S131072x1, .f32⟩ : BufTy).Contents (Elt F)),
    nullary main_cst_1 (constant S_ .f32 0x44800000#32),
    unary main_cst_1 main_v22 (broadcastInDim S131072x1 ![] bcast_S_S131072x1 : (⟨S_, .f32⟩ : BufTy).Contents (Elt F) → (⟨S131072x1, .f32⟩ : BufTy).Contents (Elt F)),
    binary main_v21 main_v22 main_v23 (Host.divf : (⟨S131072x1, .f32⟩ : BufTy).Contents (Elt F) → (⟨S131072x1, .f32⟩ : BufTy).Contents (Elt F) → (⟨S131072x1, .f32⟩ : BufTy).Contents (Elt F)),
    unary main_v23 main_v24 (broadcastInDim S131072x1024 ![0, 1] bcast_S131072x1_S131072x1024_0_1 : (⟨S131072x1, .f32⟩ : BufTy).Contents (Elt F) → (⟨S131072x1024, .f32⟩ : BufTy).Contents (Elt F)),
    binary main_v19 main_v24 main_v25 (subf : (⟨S131072x1024, .f32⟩ : BufTy).Contents (Elt F) → (⟨S131072x1024, .f32⟩ : BufTy).Contents (Elt F) → (⟨S131072x1024, .f32⟩ : BufTy).Contents (Elt F)),
    binary main_v25 main_v25 main_v26 (mulf : (⟨S131072x1024, .f32⟩ : BufTy).Contents (Elt F) → (⟨S131072x1024, .f32⟩ : BufTy).Contents (Elt F) → (⟨S131072x1024, .f32⟩ : BufTy).Contents (Elt F)),
    nullary main_cst_2 (constant S_ .f32 0x00000000#32),
    binary main_v26 main_cst_2 main_v27 ((fun x v => Host.reduceAdd x v reducesTo_S131072x1024_S131072_d1 h_S_) : (⟨S131072x1024, .f32⟩ : BufTy).Contents (Elt F) → (⟨S_, .f32⟩ : BufTy).Contents (Elt F) → (⟨S131072, .f32⟩ : BufTy).Contents (Elt F)),
    unary main_v27 main_v28 (broadcastInDim S131072x1 ![0] bcast_S131072_S131072x1_0 : (⟨S131072, .f32⟩ : BufTy).Contents (Elt F) → (⟨S131072x1, .f32⟩ : BufTy).Contents (Elt F)),
    nullary main_cst_3 (constant S_ .f32 0x44800000#32),
    unary main_cst_3 main_v29 (broadcastInDim S131072x1 ![] bcast_S_S131072x1 : (⟨S_, .f32⟩ : BufTy).Contents (Elt F) → (⟨S131072x1, .f32⟩ : BufTy).Contents (Elt F)),
    binary main_v28 main_v29 main_v30 (Host.divf : (⟨S131072x1, .f32⟩ : BufTy).Contents (Elt F) → (⟨S131072x1, .f32⟩ : BufTy).Contents (Elt F) → (⟨S131072x1, .f32⟩ : BufTy).Contents (Elt F)),
    unary main_v23 main_v31 (broadcastInDim S131072x1024 ![0, 1] bcast_S131072x1_S131072x1024_0_1 : (⟨S131072x1, .f32⟩ : BufTy).Contents (Elt F) → (⟨S131072x1024, .f32⟩ : BufTy).Contents (Elt F)),
    binary main_v19 main_v31 main_v32 (subf : (⟨S131072x1024, .f32⟩ : BufTy).Contents (Elt F) → (⟨S131072x1024, .f32⟩ : BufTy).Contents (Elt F) → (⟨S131072x1024, .f32⟩ : BufTy).Contents (Elt F)),
    nullary main_cst_4 (constant S_ .f32 0x3727C5AC#32),
    unary main_cst_4 main_v33 (broadcastInDim S131072x1 ![] bcast_S_S131072x1 : (⟨S_, .f32⟩ : BufTy).Contents (Elt F) → (⟨S131072x1, .f32⟩ : BufTy).Contents (Elt F)),
    binary main_v30 main_v33 main_v34 (addf : (⟨S131072x1, .f32⟩ : BufTy).Contents (Elt F) → (⟨S131072x1, .f32⟩ : BufTy).Contents (Elt F) → (⟨S131072x1, .f32⟩ : BufTy).Contents (Elt F)),
    unary main_v34 main_v35 (Host.rsqrt : (⟨S131072x1, .f32⟩ : BufTy).Contents (Elt F) → (⟨S131072x1, .f32⟩ : BufTy).Contents (Elt F)),
    unary main_v35 main_v36 (broadcastInDim S131072x1024 ![0, 1] bcast_S131072x1_S131072x1024_0_1 : (⟨S131072x1, .f32⟩ : BufTy).Contents (Elt F) → (⟨S131072x1024, .f32⟩ : BufTy).Contents (Elt F)),
    binary main_v32 main_v36 main_v37 (mulf : (⟨S131072x1024, .f32⟩ : BufTy).Contents (Elt F) → (⟨S131072x1024, .f32⟩ : BufTy).Contents (Elt F) → (⟨S131072x1024, .f32⟩ : BufTy).Contents (Elt F)),
    unary main_arg5 main_v38 (broadcastInDim S1x1024 ![1] bcast_S1024_S1x1024_1 : (⟨S1024, .f32⟩ : BufTy).Contents (Elt F) → (⟨S1x1024, .f32⟩ : BufTy).Contents (Elt F)),
    unary main_v38 main_v39 (broadcastInDim S131072x1024 ![0, 1] bcast_S1x1024_S131072x1024_0_1 : (⟨S1x1024, .f32⟩ : BufTy).Contents (Elt F) → (⟨S131072x1024, .f32⟩ : BufTy).Contents (Elt F)),
    binary main_v37 main_v39 main_v40 (mulf : (⟨S131072x1024, .f32⟩ : BufTy).Contents (Elt F) → (⟨S131072x1024, .f32⟩ : BufTy).Contents (Elt F) → (⟨S131072x1024, .f32⟩ : BufTy).Contents (Elt F)),
    unary main_arg6 main_v41 (broadcastInDim S1x1024 ![1] bcast_S1024_S1x1024_1 : (⟨S1024, .f32⟩ : BufTy).Contents (Elt F) → (⟨S1x1024, .f32⟩ : BufTy).Contents (Elt F)),
    unary main_v41 main_v42 (broadcastInDim S131072x1024 ![0, 1] bcast_S1x1024_S131072x1024_0_1 : (⟨S1x1024, .f32⟩ : BufTy).Contents (Elt F) → (⟨S131072x1024, .f32⟩ : BufTy).Contents (Elt F)),
    binary main_v40 main_v42 main_v43 (addf : (⟨S131072x1024, .f32⟩ : BufTy).Contents (Elt F) → (⟨S131072x1024, .f32⟩ : BufTy).Contents (Elt F) → (⟨S131072x1024, .f32⟩ : BufTy).Contents (Elt F)) ]

/-- @main's 52 operations, in order. -/
abbrev ops : List (HloOp τ sig (Elt F)) := opsEnc ++ opsLin ++ opsNorm

-- the ramp's three operations re-associated into the line: the rewrite under the chain recurses once per statement
set_option maxRecDepth 1024 in
/-- @main is that straight line: the ramp function's definition unfolded at its call and the call's record at its
    fields, both sides are one chain of `hlo` steps once sequencing is reassociated. -/
theorem main_eq (c : Dev nD) : main (F := F) c = seq ops := by
  simp only [main, fn_relu.body, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub .., unary_bufs_sub .., unary_bufs_sub .., unary_bufs_sub .., unary_bufs_sub .., binary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-! ### Each stretch over an arbitrary valuation -/

/-- The encoding's stretch leaves the encoding of the coordinates at its last buffer. -/
theorem enc_eq (V : Valuation τ sig (Elt F)) :
    after opsEnc V (main_v10 : DevRef τ sig) = RefValue.enc (V (main_arg0 : DevRef τ sig)) := by
  after_results
  rfl

/-- The layers' stretch leaves the second linear layer of the ramped hidden layer at its last buffer; the typed
    references' transports in the ramp's three operations are the identity at these literal references. -/
theorem lin_eq (V : Valuation τ sig (Elt F)) :
    after opsLin V (main_v19 : DevRef τ sig)
      = RefValue.linArr (RefValue.hiddenArr (V (main_v10 : DevRef τ sig)) (V (main_arg1 : DevRef τ sig))
          (V (main_arg2 : DevRef τ sig))) (V (main_arg3 : DevRef τ sig)) (V (main_arg4 : DevRef τ sig)) := by
  after_results
  rfl

/-- The normalisation's stretch leaves the normalised, scaled and shifted rows at its last buffer. The layers' result is
    read six times (twice through the deviation, four times through the variance): one pass that visits each shared
    subterm once. -/
theorem norm_eq (V : Valuation τ sig (Elt F)) :
    after opsNorm V (main_v43 : DevRef τ sig)
      = RefValue.normArr (V (main_v19 : DevRef τ sig)) (V (main_arg5 : DevRef τ sig)) (V (main_arg6 : DevRef τ sig)) := by
  after_results_simp
  rfl

/-! ### The whole line -/

/-- The contents after the whole line are the three stretches' one after the other. -/
theorem after_ops (V : Valuation τ sig (Elt F)) :
    after ops V = after opsNorm (after opsLin (after opsEnc V)) := by
  show after (opsEnc ++ opsLin ++ opsNorm) V = _
  rw [Cert.LibAfter.after_append, Cert.LibAfter.after_append]

/-- The result buffer after the line holds the stages' composed term of the arguments' contents: each stretch's last
    buffer is read by its lemma, and a buffer a stretch only reads (the weights, the biases, the scale and the shift) is
    what it was before it. -/
theorem out_eq (V : Valuation τ sig (Elt F)) :
    after ops V (main_v43 : DevRef τ sig)
      = RefValue.refTerm (V (main_arg0 : DevRef τ sig)) (V (main_arg1 : DevRef τ sig)) (V (main_arg2 : DevRef τ sig))
          (V (main_arg3 : DevRef τ sig)) (V (main_arg4 : DevRef τ sig)) (V (main_arg5 : DevRef τ sig)) (V (main_arg6 : DevRef τ sig)) := by
  rw [after_ops, norm_eq, lin_eq, enc_eq]
  after_results_simp
  rfl

/-- No operation of the line writes an argument's buffer. -/
theorem args_eq (V : Valuation τ sig (Elt F)) :
    after ops V (main_arg0 : DevRef τ sig) = (V (main_arg0 : DevRef τ sig))
      ∧ after ops V (main_arg1 : DevRef τ sig) = (V (main_arg1 : DevRef τ sig))
      ∧ after ops V (main_arg2 : DevRef τ sig) = (V (main_arg2 : DevRef τ sig))
      ∧ after ops V (main_arg3 : DevRef τ sig) = (V (main_arg3 : DevRef τ sig))
      ∧ after ops V (main_arg4 : DevRef τ sig) = (V (main_arg4 : DevRef τ sig))
      ∧ after ops V (main_arg5 : DevRef τ sig) = (V (main_arg5 : DevRef τ sig))
      ∧ after ops V (main_arg6 : DevRef τ sig) = (V (main_arg6 : DevRef τ sig)) := by
  rw [after_ops]
  refine ⟨?_, ?_, ?_, ?_, ?_, ?_, ?_⟩ <;> after_results_simp

/-- Every weakly fair execution of the reference terminates with its result at `refTerm` of the arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43)
        = RefValue.refTerm (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v43).trans (out_eq _),
      (h c main_arg0).trans (args_eq _).1, (h c main_arg1).trans (args_eq _).2.1,
      (h c main_arg2).trans (args_eq _).2.2.1, (h c main_arg3).trans (args_eq _).2.2.2.1,
      (h c main_arg4).trans (args_eq _).2.2.2.2.1, (h c main_arg5).trans (args_eq _).2.2.2.2.2.1,
      (h c main_arg6).trans (args_eq _).2.2.2.2.2.2⟩)
    (run_seq scopedRefs_eq scopedSems_eq defs main (fun _ => ops) main_eq (fun _ => ops_sub) m ρ)

end Cert.ReferenceIdeal.RefRun

end
-- ==== Proof.LibPlainDot.lean ====
/-
  A HOST DOT PRODUCT READ AT AN ENTRY. jnp's `dot_general` of an m × k matrix by a k × n matrix (the left operand
  contracted on its columns, the right one on its rows, no batch axis) is, at the ideal values and at entry (a, b), the
  sum over the contracted coordinate c of A(a, c) · B(c, b), whatever the precision and the schedule: the same sum a
  kernel's matrix product into the zero splat gives.
-/
import proofs.«148274_j41790031790624_1_alg».proof.Proof.LibPlainMatmul

open scoped BigOperators

noncomputable section

namespace Idealize.ShloMosaic.PlainMatmul

open Idealize.ShloMosaic Idealize.ShloMosaic.ValueIdx

variable {m k n : Nat} {φ₁ φ₂ : FTy}

/-- The host's plain product at entry (a, b): the sum of the products along row a of A and column b of B. -/
theorem dotGeneral_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (sched : HostSchedule) (A : FVec Ideal ⟨2, ![m, k]⟩ φ₁) (B : FVec Ideal ⟨2, ![k, n]⟩ φ₂)
    (a : Fin m) (b : Fin n) :
    FloatOps.dotGeneral d prec sched A B (ix2 a b) = ∑ c : Fin k, A (ix2 a c) * B (ix2 c b) := by
  subst hd
  rw [Ideal.dotGeneral_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.RefRead.lean ====
/-
  The reference's result read at an index: entry `(r, j)` of `refTerm` at the exact instance is the layer's output
  `j` on row `r` of the encoded coordinates. Each stage is read at an index in turn: a product of matrices as the sum
  over the contracted coordinate, a row sum from zero as the plain sum, a bias or a column broadcast along the rows
  at its own coordinate.
-/
import proofs.«148274_j41790031790624_1_alg».proof.Proof.Gen.ReferenceIdeal
import proofs.«148274_j41790031790624_1_alg».proof.Proof.RefTerm
import proofs.«148274_j41790031790624_1_alg».proof.Proof.Spec
import proofs.«148274_j41790031790624_1_alg».proof.Proof.LibPlainDot
import proofs.«148274_j41790031790624_1_alg».proof.Proof.LibColumn
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.RefValue

open Cert.ReferenceIdeal Cert.ReferenceIdeal.Gen Idealize.ShloMosaic Idealize.ShloMosaic.TcCoe Idealize.ShloMosaic.ValueIdx

/-! ## The broadcasts of the reference read at an index -/

section Layout
variable {α : Type}

/-- A vector of `n` entries laid along each of `m` rows, through a one-row array: entry `(p, c)` is the vector's entry `c`. -/
theorem rowVec_apply {m n : ℕ} (x : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (c : Fin n) :
    broadcastInDim ⟨2, ![m, n]⟩ ![0, 1] h2 (broadcastInDim ⟨2, ![1, n]⟩ ![1] h1 x) (ix2 p c) = x (ix1 c) := by
  refine (broadcastInDim_apply ![0, 1] h2 _ (ix2 p c) (ix2 (0 : Fin 1) c) fun ax => ?_).trans
    (broadcastInDim_apply ![1] h1 x (ix2 (0 : Fin 1) c) (ix1 c) fun ax => ?_)
  · match ax with
    | ⟨0, _⟩ => rfl
    | ⟨1, _⟩ =>
      show c.val = if n = 1 then 0 else c.val
      split
      · have := c.isLt; omega
      · rfl
  · match ax with
    | ⟨0, _⟩ =>
      show c.val = if n = 1 then 0 else c.val
      split
      · have := c.isLt; omega
      · rfl

/-- A vector of `a` entries stood up as a one-wide column: entry `(p, u)` is the vector's entry `p`. -/
theorem colOf_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A one-wide column spread over `b` columns: entry `(p, c)` is the column's entry in row `p`. -/
theorem colSpread_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The stages read at an index -/

/-- The host's reciprocal root is taken entry by entry. -/
theorem hostRsqrt_apply {s : Shape} {φ : FTy} (v : FVec Ideal s φ) (i : s.Idx) :
    Host.rsqrt v i = Ideal.rsqrt (v i) := rfl

/-- A scalar word spread over any shape reads the word's value everywhere. -/
theorem splat_apply {T : Shape} (h : S_.BroadcastsInDim T ![]) (w : BitVec 32) (i : T.Idx) :
    broadcastInDim T ![] h (constant (F := Ideal) S_ .f32 w) i = Ideal.ofBits .f32 w :=
  broadcastInDim_scalar_apply h _ i

/-- Each row's sum from zero is the plain sum of the row. -/
theorem rowSum_apply (y : FVec Ideal S131072x1024 .f32) (r : Fin 131072) :
    Host.reduceAdd (F := Ideal) y (constant (F := Ideal) S_ .f32 0x00000000#32) reducesTo_S131072x1024_S131072_d1 h_S_ (ix1 r)
      = ∑ j : Fin 1024, y (ix2 r j) := by
  have hred : S131072x1024.Reduces [(1 : Fin 2)] S131072 := by decide
  refine (Ideal.hostReduceAdd_single reducesTo_S131072x1024_S131072_d1 hred y _ (ix1 r)).trans ?_
  rw [constant_apply, Ideal.ofBits_zero_f32, zero_add]
  exact Finset.sum_congr rfl fun k _ => congrArg y (Cert.LibColumn.lift_last_ix2 hred r k)

/-- The first product at entry `(r, n)`: the sum over the 256 encoded features. -/
theorem dotHidden_apply (x : FVec Ideal S131072x256 .f32) (a1 : FVec Ideal S256x2048 .f32) (r : Fin 131072) (n : Fin 2048) :
    Host.dotGeneral (F := Ideal) dot_S131072x256_S256x2048_S131072x2048_1_0_0_1_n_n none x a1 (ix2 r n)
      = ∑ k : Fin 256, x (ix2 r k) * a1 (ix2 k n) :=
  PlainMatmul.dotGeneral_apply dot_S131072x256_S256x2048_S131072x2048_1_0_0_1_n_n
    Facts₀.dot_S131072x256_S256x2048_S131072x2048_1_0_0_1_n_n_wf rfl none _ x a1 r n

/-- The second product at entry `(r, j)`: the sum over the 2048 hidden units. -/
theorem dotLin_apply (h : FVec Ideal S131072x2048 .f32) (a3 : FVec Ideal S2048x1024 .f32) (r : Fin 131072) (j : Fin 1024) :
    Host.dotGeneral (F := Ideal) dot_S131072x2048_S2048x1024_S131072x1024_1_0_0_1_n_n none h a3 (ix2 r j)
      = ∑ n : Fin 2048, h (ix2 r n) * a3 (ix2 n j) :=
  PlainMatmul.dotGeneral_apply dot_S131072x2048_S2048x1024_S131072x1024_1_0_0_1_n_n
    Facts₀.dot_S131072x2048_S2048x1024_S131072x1024_1_0_0_1_n_n_wf rfl none _ h a3 r j

/-- Entry `(r, n)` of the hidden layer is the ramp of the affine form of row `r`. -/
theorem hiddenArr_apply (x : FVec Ideal S131072x256 .f32) (a1 : FVec Ideal S256x2048 .f32) (a2 : FVec Ideal S2048 .f32)
    (r : Fin 131072) (n : Fin 2048) :
    hiddenArr (F := Ideal) x a1 a2 (ix2 r n)
      = Cert.Spec.hidden (fun k => x (ix2 r k)) (fun k n => a1 (ix2 k n)) (fun n => a2 (ix1 n)) n := by
  unfold hiddenArr Cert.Spec.hidden
  rw [maximumf_apply, addf_apply, rowVec_apply, splat_apply, dotHidden_apply]

/-- Entry `(r, j)` of the second linear layer: the product's sum over the hidden units plus the bias. -/
theorem linArr_apply (h : FVec Ideal S131072x2048 .f32) (a3 : FVec Ideal S2048x1024 .f32) (a4 : FVec Ideal S1024 .f32)
    (r : Fin 131072) (j : Fin 1024) :
    linArr (F := Ideal) h a3 a4 (ix2 r j) = (∑ n : Fin 2048, h (ix2 r n) * a3 (ix2 n j)) + a4 (ix1 j) := by
  unfold linArr
  rw [addf_apply, rowVec_apply, dotLin_apply]

/-- The one entry of row `r` of the column of means: the row's sum divided by the row length. -/
theorem meanArr_apply (y : FVec Ideal S131072x1024 .f32) (r : Fin 131072) (u : Fin 1) :
    meanArr (F := Ideal) y (ix2 r u) = Ideal.div (∑ j : Fin 1024, y (ix2 r j)) Cert.Spec.countW := by
  unfold meanArr
  rw [hostDivf_apply, colOf_apply, splat_apply, rowSum_apply]

/-- Entry `(r, j)` of the deviations: the entry less its row's mean. -/
theorem devArr_apply (y : FVec Ideal S131072x1024 .f32) (r : Fin 131072) (j : Fin 1024) :
    devArr (F := Ideal) y (ix2 r j) = y (ix2 r j) - meanArr (F := Ideal) y (ix2 r (0 : Fin 1)) := by
  unfold devArr
  rw [subf_apply, colSpread_apply]

/-- Entry `(r, j)` of the normalisation. -/
theorem normArr_apply (y : FVec Ideal S131072x1024 .f32) (a5 a6 : FVec Ideal S1024 .f32) (r : Fin 131072) (j : Fin 1024) :
    normArr (F := Ideal) y a5 a6 (ix2 r j)
      = devArr (F := Ideal) y (ix2 r j)
          * Ideal.rsqrt (meanArr (F := Ideal) (mulf (devArr (F := Ideal) y) (devArr (F := Ideal) y)) (ix2 r (0 : Fin 1))
              + Cert.Spec.epsW)
          * a5 (ix1 j) + a6 (ix1 j) := by
  unfold normArr
  rw [addf_apply, mulf_apply, mulf_apply, rowVec_apply, rowVec_apply, colSpread_apply, hostRsqrt_apply, addf_apply,
    splat_apply]

/-- A normalised array whose row `r` is the second linear layer's row has, at `(r, j)`, the layer's output `j`. -/
theorem normArr_eq_out (y : FVec Ideal S131072x1024 .f32) (a5 a6 : FVec Ideal S1024 .f32) (r : Fin 131072)
    (x : Fin 256 → EReal) (W1 : Fin 256 → Fin 2048 → EReal) (b1 : Fin 2048 → EReal)
    (W2 : Fin 2048 → Fin 1024 → EReal) (b2 : Fin 1024 → EReal)
    (hy : ∀ j : Fin 1024, y (ix2 r j) = Cert.Spec.lin x W1 b1 W2 b2 j) (j : Fin 1024) :
    normArr (F := Ideal) y a5 a6 (ix2 r j)
      = Cert.Spec.out x W1 b1 W2 b2 (fun j => a5 (ix1 j)) (fun j => a6 (ix1 j)) j := by
  have hm : meanArr (F := Ideal) y (ix2 r (0 : Fin 1)) = Cert.Spec.mean x W1 b1 W2 b2 := by
    rw [meanArr_apply]
    unfold Cert.Spec.mean
    exact congrArg (fun s => Ideal.div s Cert.Spec.countW) (Finset.sum_congr rfl fun j _ => hy j)
  have hd : ∀ j : Fin 1024, devArr (F := Ideal) y (ix2 r j) = Cert.Spec.dev x W1 b1 W2 b2 j := by
    intro j
    rw [devArr_apply, hy, hm]
    rfl
  have hv : meanArr (F := Ideal) (mulf (devArr (F := Ideal) y) (devArr (F := Ideal) y)) (ix2 r (0 : Fin 1))
      = Cert.Spec.var x W1 b1 W2 b2 := by
    rw [meanArr_apply]
    unfold Cert.Spec.var
    refine congrArg (fun s => Ideal.div s Cert.Spec.countW) (Finset.sum_congr rfl fun j _ => ?_)
    rw [mulf_apply, hd]
  rw [normArr_apply, hd, hv]
  rfl

/-- Entry `(r, j)` of the reference's result is the layer's output `j` on row `r` of the encoded coordinates. -/
theorem refTerm_apply (a0 : FVec Ideal S131072x2 .f32) (a1 : FVec Ideal S256x2048 .f32) (a2 : FVec Ideal S2048 .f32)
    (a3 : FVec Ideal S2048x1024 .f32) (a4 a5 a6 : FVec Ideal S1024 .f32) (r : Fin 131072) (j : Fin 1024) :
    refTerm (F := Ideal) a0 a1 a2 a3 a4 a5 a6 (ix2 r j)
      = Cert.Spec.out (fun k => enc (F := Ideal) a0 (ix2 r k)) (fun k n => a1 (ix2 k n)) (fun n => a2 (ix1 n))
          (fun n j => a3 (ix2 n j)) (fun j => a4 (ix1 j)) (fun j => a5 (ix1 j)) (fun j => a6 (ix1 j)) j := by
  unfold refTerm
  refine normArr_eq_out _ a5 a6 r _ _ _ _ _ (fun j => ?_) j
  rw [linArr_apply]
  unfold Cert.Spec.lin
  exact congrArg (fun s => s + a4 (ix1 j))
    (Finset.sum_congr rfl fun n _ => congrArg (fun t => t * a3 (ix2 n j)) (hiddenArr_apply _ a1 a2 r n))

end Cert.ReferenceIdeal.RefValue

end
-- ==== Proof.Bridge.lean ====
/-
  The two sides meet. The reference and the kernel's host prefix spell the encoding of the coordinates with the same
  operations in the same order over the same table of inverse wavelengths, so the two encodings are one function; and
  the reference's result, entry by entry, is the layer's output on the row of that encoding, which is the function the
  kernel's result array was shown to be.
-/
import proofs.«148274_j41790031790624_1_alg».proof.Proof.Gen.ReferenceIdeal
import proofs.«148274_j41790031790624_1_alg».proof.Proof.RefTerm
import proofs.«148274_j41790031790624_1_alg».proof.Proof.RefRead
import proofs.«148274_j41790031790624_1_alg».proof.Proof.KernelHost
import proofs.«148274_j41790031790624_1_alg».proof.Proof.KernelArray
import Idealize.ShloMosaic.Lib.ValueIdx

noncomputable section

namespace Cert.Bridge

open Idealize.ShloMosaic Idealize.ShloMosaic.ValueIdx

/-- The two tables of inverse wavelengths list the same 64 words. -/
theorem lit_eq : ∀ i : Fin 64, Cert.ReferenceIdeal.lit0 i = Cert.KernelIdeal.lit0 i := by decide

/-- The two programs' tables of inverse wavelengths are one array. -/
theorem freqs_eq : Cert.ReferenceIdeal.RefValue.freqs (F := Ideal) = Cert.KernelIdeal.HostValue.freqs (F := Ideal) := by
  funext i
  exact congrArg (FloatOps.ofBits (F := Ideal) .f32) (lit_eq (Cert.ReferenceIdeal.S64.rowMajor i))

/-- The two programs' encodings of the coordinates are one function. -/
theorem enc_eq (a0 : FVec Ideal Cert.KernelIdeal.S131072x2 .f32) :
    Cert.ReferenceIdeal.RefValue.enc (F := Ideal) a0 = Cert.KernelIdeal.HostValue.enc (F := Ideal) a0 := by
  unfold Cert.ReferenceIdeal.RefValue.enc Cert.KernelIdeal.HostValue.enc
  rw [freqs_eq]

/-- The reference's result is the layer on every row of the encoded coordinates. -/
theorem ref_eq_G (a0 : FVec Ideal Cert.KernelIdeal.S131072x2 .f32) (a1 : FVec Ideal Cert.KernelIdeal.S256x2048 .f32)
    (a2 : FVec Ideal Cert.KernelIdeal.S2048 .f32) (a3 : FVec Ideal Cert.KernelIdeal.S2048x1024 .f32)
    (a4 a5 a6 : FVec Ideal Cert.KernelIdeal.S1024 .f32) :
    Cert.ReferenceIdeal.RefValue.refTerm (F := Ideal) a0 a1 a2 a3 a4 a5 a6
      = Cert.KernelIdeal.ArrayValue.G (Cert.KernelIdeal.HostValue.enc (F := Ideal) a0) a1 a2 a3 a4 a5 a6 := by
  funext i
  obtain ⟨r, j, rfl⟩ : ∃ (r : Fin 131072) (j : Fin 1024), i = ix2 r j := ⟨i 0, i 1, eq_ix2 i⟩
  rw [Cert.ReferenceIdeal.RefValue.refTerm_apply, Cert.KernelIdeal.ArrayValue.G_apply, enc_eq]

end Cert.Bridge

end
-- ==== Proof.lean ====
/-
  A positional encoding followed by a two-layer network with a row normalisation, computed two ways.

  Both programs first encode each of the 131072 coordinate pairs as 256 features: each coordinate times each of 64
  inverse wavelengths, the sine and the cosine of that phase side by side. The encoded row then goes through a hidden
  layer of 2048 units with a ramp, a linear layer to 1024 outputs, and a normalisation of the row — subtract the row's
  mean, multiply by the reciprocal root of the row's variance plus ε, scale by γ and shift by β. The reference does
  this for all rows at once; the kernel takes the encoded rows 1024 at a time over 128 grid points, with the weights
  held whole at every point, and writes the matching 1024 rows of the result.

  On the extended reals, with exact operations and format changes the identity, the two are the same function entry by
  entry: a matrix product accumulated from zero and a host product are the same sum over the contracted coordinate, a
  lane sum and a host sum from zero the same sum over the row, and both divide by the same word for 1024 and add the
  same word for ε. No law beyond re-indexing sums is used, so the finiteness of the inputs is never opened.

  The kernel's frames are the generated ones; the reference's frame is its run with the result dropped; the
  idealisation rewrote nothing, so there is nothing for it to preserve.
-/
import proofs.«148274_j41790031790624_1_alg».proof.Defs
import proofs.«148274_j41790031790624_1_alg».proof.Proof.Gen.Kernel
import proofs.«148274_j41790031790624_1_alg».proof.Proof.Gen.Kernel.Skeleton
import proofs.«148274_j41790031790624_1_alg».proof.Proof.Gen.Kernel.Launch
import proofs.«148274_j41790031790624_1_alg».proof.Proof.Gen.Kernel.Points
import proofs.«148274_j41790031790624_1_alg».proof.Proof.Gen.Kernel.Frame
import proofs.«148274_j41790031790624_1_alg».proof.Proof.Gen.KernelIdeal
import proofs.«148274_j41790031790624_1_alg».proof.Proof.Gen.KernelIdeal.Skeleton
import proofs.«148274_j41790031790624_1_alg».proof.Proof.Gen.KernelIdeal.Launch
import proofs.«148274_j41790031790624_1_alg».proof.Proof.Gen.KernelIdeal.Points
import proofs.«148274_j41790031790624_1_alg».proof.Proof.Gen.KernelIdeal.Frame
import proofs.«148274_j41790031790624_1_alg».proof.Proof.Gen.ReferenceIdeal
import proofs.«148274_j41790031790624_1_alg».proof.Proof.Gen.Pre_finite_inputs
import proofs.«148274_j41790031790624_1_alg».proof.Proof.KernelArray
import proofs.«148274_j41790031790624_1_alg».proof.Proof.RefRun
import proofs.«148274_j41790031790624_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, with what it says of the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealisation rewrote no operation. -/
theorem preserves : Cert.preserves_Kernel_KernelIdeal := trivial

/-- From memories that agree on the arguments both programs end with the layer on every row of the encoded
    coordinates: the kernel's result array block by block, the reference's entry by entry. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1,
    (hagree c).2.2.2.2.2.1, (hagree c).2.2.2.2.2.2]
  exact Cert.Bridge.ref_eq_G _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
